-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x3 : Shape := ⟨3, ![16, 4096, 3]⟩
abbrev S_ : Shape := ⟨0, ![]⟩

class Facts : Prop where
  bcast_S_S16x4096x3 : S_.BroadcastsInDim S16x4096x3 (![] : Fin 0 → Fin S16x4096x3.rank)
  reducesTo_S16x4096x3_S_d0_1_2 : S16x4096x3.ReducesTo [0, 1, 2] S_
  h_S_ : 0 < S_.numel

variable [Facts]

def fn {F : FTy → Type} [FloatOps F] (main_arg0 : FVec F S16x4096x3 .f32) (main_arg1 : FVec F S16x4096x3 .f32) : IVec S_ 1 :=
  let main_v0 : FVec F S16x4096x3 .f32 := Host.absf main_arg0
  let main_cst : FVec F S_ .f32 := constant S_ .f32 0x7F800000#32
  let main_v1 : FVec F S16x4096x3 .f32 := broadcastInDim S16x4096x3 ![] bcast_S_S16x4096x3 main_cst
  let main_v2 : IVec S16x4096x3 1 := cmpf .olt main_v0 main_v1
  let main_c : IVec S_ 1 := constantI S_ 1 1#1
  let main_v3 : IVec S_ 1 := (fun x v => Host.reduce IntOp.andi x v reducesTo_S16x4096x3_S_d0_1_2 h_S_) main_v2 main_c
  let main_v4 : FVec F S16x4096x3 .f32 := Host.absf main_arg1
  let main_cst_0 : FVec F S_ .f32 := constant S_ .f32 0x7F800000#32
  let main_v5 : FVec F S16x4096x3 .f32 := broadcastInDim S16x4096x3 ![] bcast_S_S16x4096x3 main_cst_0
  let main_v6 : IVec S16x4096x3 1 := cmpf .olt main_v4 main_v5
  let main_c_1 : IVec S_ 1 := constantI S_ 1 1#1
  let main_v7 : IVec S_ 1 := (fun x v => Host.reduce IntOp.andi x v reducesTo_S16x4096x3_S_d0_1_2 h_S_) main_v6 main_c_1
  let main_v8 : IVec S_ 1 := andi main_v3 main_v7
  main_v8
-- ==== Kernel.lean ====
abbrev S16x4096x3 : Shape := ⟨3, ![16, 4096, 3]⟩
abbrev S16x1x4096 : Shape := ⟨3, ![16, 1, 4096]⟩
abbrev S1x1024x3 : Shape := ⟨3, ![1, 1024, 3]⟩
abbrev S1x1x1024 : Shape := ⟨3, ![1, 1, 1024]⟩
abbrev S1x1x4096 : Shape := ⟨3, ![1, 1, 4096]⟩
abbrev S1024x1 : Shape := ⟨2, ![1024, 1]⟩
abbrev S1x4096 : Shape := ⟨2, ![1, 4096]⟩
abbrev S1024x3 : Shape := ⟨2, ![1024, 3]⟩
abbrev S1024 : Shape := ⟨1, ![1024]⟩
abbrev S1x1024 : Shape := ⟨2, ![1, 1024]⟩
abbrev S1024x1024 : Shape := ⟨2, ![1024, 1024]⟩
abbrev S_ : Shape := ⟨0, ![]⟩

abbrev nBuf : Space → Nat
  | .hbm => 11
  | .vmem => 10
  | .smem => 0
  | _ => 0

abbrev bufTy : (tb : Table) → Fin (tcTables nBuf tb) → BufTy
  | .hbm, ⟨0, _⟩ => ⟨S16x4096x3, .f32⟩
  | .hbm, ⟨1, _⟩ => ⟨S16x4096x3, .f32⟩
  | .hbm, ⟨2, _⟩ => ⟨S16x1x4096, .f32⟩
  | .hbm, ⟨3, _⟩ => ⟨S16x1x4096, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .local _ .vmem, ⟨0, _⟩ => ⟨S1x1024x3, .f32⟩
  | .local _ .vmem, ⟨1, _⟩ => ⟨S1x1024x3, .f32⟩
  | .local _ .vmem, ⟨2, _⟩ => ⟨S1x1024x3, .f32⟩
  | .local _ .vmem, ⟨3, _⟩ => ⟨S1x1024x3, .f32⟩
  | .local _ .vmem, ⟨4, _⟩ => ⟨S1x1x1024, .f32⟩
  | .local _ .vmem, ⟨5, _⟩ => ⟨S1x1x1024, .f32⟩
  | .local _ .vmem, ⟨6, _⟩ => ⟨S1x1x4096, .f32⟩
  | .local _ .vmem, ⟨7, _⟩ => ⟨S1x1x4096, .f32⟩
  | .local _ .vmem, ⟨8, _⟩ => ⟨S1024x1, .f32⟩
  | .local _ .vmem, ⟨9, _⟩ => ⟨S1x4096, .f32⟩
  | _, _ => ⟨S16x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 4, 4], ![false, false, false]⟩

def k0_mult1 (i : grid0.Coords) : BitVec 32 :=
  let arg2 : BitVec 32 := BitVec.ofNat 32 (i 2).val
  let c1024_i32 : BitVec 32 := 1024#32
  let v37 : BitVec 32 := Scalar.muli arg2 c1024_i32
  v37
def k0_off1 (i : grid0.Coords) : Fin 2 → Nat :=
  let c0_18 : Index := 0#32
  let arg2 : BitVec 32 := BitVec.ofNat 32 (i 2).val
  let c1024_i32 : BitVec 32 := 1024#32
  let v37 : BitVec 32 := Scalar.muli arg2 c1024_i32
  let v38 : BitVec 32 := v37
  let v39 : Index := Scalar.indexCast v38
  ![0, v39.toNat]
def k0_cond3 (i : grid0.Coords) : BitVec 1 :=
  let arg2 : BitVec 32 := BitVec.ofNat 32 (i 2).val
  let c3_i32 : BitVec 32 := 3#32
  let v46 : BitVec 1 := Scalar.cmpi .eq arg2 c3_i32
  let v47 : BitVec 32 := Scalar.extui v46
  let c0_i32_20 : BitVec 32 := 0#32
  let v48 : BitVec 1 := Scalar.cmpi .ne v47 c0_i32_20
  v48

def k0_cond4 (i : grid0.Coords) : BitVec 1 :=
  let arg1 : BitVec 32 := BitVec.ofNat 32 (i 1).val
  let c3_i32_21 : BitVec 32 := 3#32
  let v49 : BitVec 1 := Scalar.cmpi .eq arg1 c3_i32_21
  let arg2 : BitVec 32 := BitVec.ofNat 32 (i 2).val
  let c3_i32_22 : BitVec 32 := 3#32
  let v50 : BitVec 1 := Scalar.cmpi .eq arg2 c3_i32_22
  let v51 : BitVec 1 := Scalar.andi v49 v50
  let v52 : BitVec 32 := Scalar.extui v51
  let c0_i32_23 : BitVec 32 := 0#32
  let v53 : BitVec 1 := Scalar.cmpi .ne v52 c0_i32_23
  v53

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

class Facts₀ : Prop where
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  inb_S1x1024x3_S1x1024x3_0_0_0 : ∀ a, (![0, 0, 0] : Fin 3 → Nat) a + S1x1024x3.size a ≤ S1x1024x3.size a
  h_S1x1024x3 : 0 < S1x1024x3.numel
  shapeCasts_S1x1024x3_S1024x3 : S1x1024x3.ShapeCasts S1024x3
  reduces_S1024x3_S1024 : S1024x3.Reduces [1] S1024
  shapeCasts_S1024_S1024x1 : S1024.ShapeCasts S1024x1
  transposes_S1024x1_p1_0_S1x1024 : S1024x1.Transposes [1, 0] S1x1024
  bitsLt_bf16_f32 : FTy.bits .bf16 < FTy.bits .f32
  broadcasts_S1024x1_S1024x1024 : S1024x1.Broadcasts S1024x1024
  broadcasts_S1x1024_S1024x1024 : S1x1024.Broadcasts S1024x1024
  reduces_S1024x1024_S1024 : S1024x1024.Reduces [1] S1024
  reduces_S1024x1024_S1024_2 : S1024x1024.Reduces [0] S1024
  shapeCasts_S1024_S1x1024 : S1024.ShapeCasts S1x1024
  h_S1x1024 : 0 < S1x1024.numel
  shapeCasts_S1x1024_S1x1024 : S1x1024.ShapeCasts S1x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  shapeCasts_S1x1024_S1x1x1024 : S1x1024.ShapeCasts S1x1x1024
  inb_S1x1x4096_S1x1x4096_0_0_0 : ∀ a, (![0, 0, 0] : Fin 3 → Nat) a + S1x1x4096.size a ≤ S1x1x4096.size a
  h_S1x1x4096 : 0 < S1x1x4096.numel
  shapeCasts_S1x1x4096_S1x4096 : S1x1x4096.ShapeCasts S1x4096
  shapeCasts_S1x4096_S1x1x4096 : S1x4096.ShapeCasts S1x1x4096
  reducesTo_S16x1x4096_S_d0_1_2 : S16x1x4096.ReducesTo [0, 1, 2] S_
  h_S_ : 0 < S_.numel
  dot_S1024x3_S1024x3_S1024x1024_1_1_0_0_n_n_wf : DotDims.WF S1024x3 S1024x3 S1024x1024 [1] [1] [0] [0] [] []
  hrank0 : 0 < grid0.rank
  k0_mult1_dvd : ∀ i : grid0.Coords, 128 ∣ (k0_mult1 i).toNat
  k0_off1_inb : ∀ i : grid0.Coords, ∀ a, (k0_off1 i) a + S1x1024.size a ≤ S1x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x3.size a ≤ S16x4096x3.size a
  hwx0_0 : ∀ i : grid0.Coords, EltTy.bits .f32 = 32 ∨ (Rect.block (s := S16x4096x3) S1x1024x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x3.size a ≤ S16x4096x3.size a
  hwx0_1 : ∀ i : grid0.Coords, EltTy.bits .f32 = 32 ∨ (Rect.block (s := S16x4096x3) S1x1024x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024.size a ≤ S16x1x4096.size a
  hwx0_2 : ∀ i : grid0.Coords, EltTy.bits .f32 = 32 ∨ (Rect.block (s := S16x1x4096) S1x1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x4096.size a ≤ S16x1x4096.size a
  hwx0_3 : ∀ i : grid0.Coords, EltTy.bits .f32 = 32 ∨ (Rect.block (s := S16x1x4096) S1x1x4096.size (cc0_transform_3 i) (hinb0_3 i)).WholeWords (EltTy.packing .f32)

variable [Facts₀]

def dot_S1024x3_S1024x3_S1024x1024_1_1_0_0_n_n : DotDims S1024x3 S1024x3 S1024x1024 where
  lhsContracting := [1]
  rhsContracting := [1]
  lhsNonContracting := [0]
  rhsNonContracting := [0]
  lhsBatch := []
  rhsBatch := []
  wf := dot_S1024x3_S1024x3_S1024x1024_1_1_0_0_n_n_wf

abbrev win0_0 : Pipeline.Window sig grid0 :=
  Pipeline.Window.ofSpec (Memref.whole main_arg0) S1x1024x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x1x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond3 i == 1#1) | 3 => fun i => !(k0_cond4 i == 1#1) | ⟨_ + 4, h⟩ => absurd h (Nat.not_lt.2 (Nat.le_add_left _ _))

class Facts : Prop extends Facts₀ where

variable [Facts]
-- ==== ReferenceIdeal.lean ====
abbrev S16x4096x3 : Shape := ⟨3, ![16, 4096, 3]⟩
abbrev S_ : Shape := ⟨0, ![]⟩
abbrev S16x4096 : Shape := ⟨2, ![16, 4096]⟩
abbrev S16x4096x4096 : Shape := ⟨3, ![16, 4096, 4096]⟩
abbrev S16x4096x1 : Shape := ⟨3, ![16, 4096, 1]⟩
abbrev S16x1x4096 : Shape := ⟨3, ![16, 1, 4096]⟩

abbrev nBuf : Space → Nat
  | .hbm => 33
  | .vmem => 0
  | .smem => 0
  | _ => 0

abbrev bufTy : (tb : Table) → Fin (tcTables nBuf tb) → BufTy
  | .hbm, ⟨0, _⟩ => ⟨S16x4096x3, .f32⟩
  | .hbm, ⟨1, _⟩ => ⟨S16x4096x3, .f32⟩
  | .hbm, ⟨2, _⟩ => ⟨S16x4096x3, .f32⟩
  | .hbm, ⟨3, _⟩ => ⟨S_, .f32⟩
  | .hbm, ⟨4, _⟩ => ⟨S16x4096, .f32⟩
  | .hbm, ⟨5, _⟩ => ⟨S16x4096x3, .f32⟩
  | .hbm, ⟨6, _⟩ => ⟨S_, .f32⟩
  | .hbm, ⟨7, _⟩ => ⟨S16x4096, .f32⟩
  | .hbm, ⟨8, _⟩ => ⟨S16x4096x4096, .f32⟩
  | .hbm, ⟨9, _⟩ => ⟨S16x4096x1, .f32⟩
  | .hbm, ⟨10, _⟩ => ⟨S16x1x4096, .f32⟩
  | .hbm, ⟨11, _⟩ => ⟨S16x4096x4096, .f32⟩
  | .hbm, ⟨12, _⟩ => ⟨S16x4096x4096, .f32⟩
  | .hbm, ⟨13, _⟩ => ⟨S16x4096x4096, .f32⟩
  | .hbm, ⟨14, _⟩ => ⟨S_, .f32⟩
  | .hbm, ⟨15, _⟩ => ⟨S16x4096x4096, .f32⟩
  | .hbm, ⟨16, _⟩ => ⟨S16x4096x4096, .f32⟩
  | .hbm, ⟨17, _⟩ => ⟨S16x4096x4096, .f32⟩
  | .hbm, ⟨18, _⟩ => ⟨S_, .f32⟩
  | .hbm, ⟨19, _⟩ => ⟨S16x4096, .f32⟩
  | .hbm, ⟨20, _⟩ => ⟨S_, .f32⟩
  | .hbm, ⟨21, _⟩ => ⟨S16x4096, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | _, _ => ⟨S16x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_cst_5 : Ref sig .tc := ⟨.hbm, 24, rfl⟩
abbrev main_v16 : Ref sig .tc := ⟨.hbm, 25, rfl⟩
abbrev main_cst_6 : Ref sig .tc := ⟨.hbm, 26, rfl⟩
abbrev main_v17 : Ref sig .tc := ⟨.hbm, 27, rfl⟩
abbrev main_cst_7 : Ref sig .tc := ⟨.hbm, 28, rfl⟩
abbrev main_v18 : Ref sig .tc := ⟨.hbm, 29, rfl⟩
abbrev main_v19 : Ref sig .tc := ⟨.hbm, 30, rfl⟩
abbrev main_cst_8 : Ref sig .tc := ⟨.hbm, 31, rfl⟩
abbrev main_v20 : Ref sig .tc := ⟨.hbm, 32, rfl⟩

abbrev nD : Nat := 1
abbrev τ : Topo := Topo.v7x

variable {F : FTy → Type} [FloatOps F]

class Facts₀ : Prop where
  reducesTo_S16x4096x3_S16x4096_d2 : S16x4096x3.ReducesTo [2] S16x4096
  h_S_ : 0 < S_.numel
  bcast_S16x4096_S16x4096x1_0_1 : S16x4096.BroadcastsInDim S16x4096x1 (![0, 1] : Fin 2 → Fin S16x4096x1.rank)
  bcast_S16x4096_S16x1x4096_0_2 : S16x4096.BroadcastsInDim S16x1x4096 (![0, 2] : Fin 2 → Fin S16x1x4096.rank)
  bcast_S16x4096x1_S16x4096x4096_0_1_2 : S16x4096x1.BroadcastsInDim S16x4096x4096 (![0, 1, 2] : Fin 3 → Fin S16x4096x4096.rank)
  bcast_S16x1x4096_S16x4096x4096_0_1_2 : S16x1x4096.BroadcastsInDim S16x4096x4096 (![0, 1, 2] : Fin 3 → Fin S16x4096x4096.rank)
  bcast_S_S16x4096x4096 : S_.BroadcastsInDim S16x4096x4096 (![] : Fin 0 → Fin S16x4096x4096.rank)
  reducesTo_S16x4096x4096_S16x4096_d2 : S16x4096x4096.ReducesTo [2] S16x4096
  reducesTo_S16x4096x4096_S16x4096_d1 : S16x4096x4096.ReducesTo [1] S16x4096
  reducesTo_S16x4096_S_d0_1 : S16x4096.ReducesTo [0, 1] S_
  dot_S16x4096x3_S16x4096x3_S16x4096x4096_2_2_1_1_0_0_wf : DotDims.WF S16x4096x3 S16x4096x3 S16x4096x4096 [2] [2] [1] [1] [0] [0]

variable [Facts₀]

def dot_S16x4096x3_S16x4096x3_S16x4096x4096_2_2_1_1_0_0 : DotDims S16x4096x3 S16x4096x3 S16x4096x4096 where
  lhsContracting := [2]
  rhsContracting := [2]
  lhsNonContracting := [1]
  rhsNonContracting := [1]
  lhsBatch := [0]
  rhsBatch := [0]
  wf := dot_S16x4096x3_S16x4096x3_S16x4096x4096_2_2_1_1_0_0_wf

class Facts : Prop extends Facts₀ where

variable [Facts]
-- ==== Proof.Spec.lean ====
/-
  The mathematics both programs compute, stated once over the extended reals, with no program in sight.

  For a batch of sixteen pairs of point clouds `x`, `y` (4096 points in three coordinates each) the squared distance
  between point `n` of `x` and point `m` of `y` is expanded as `(|x_n|^2 + |y_m|^2) - 2 * <x_n, y_m>`; a point's
  nearest squared distance to the other cloud is the infimum of that over the other cloud's points; and the result
  is the sum of all those infima, both ways, divided by sixteen.

  A running infimum over the first `K` points (`minBelow`) is what a tiled evaluation carries from tile to tile: the
  three lemmas about it say that it starts at the top element, that one more tile of 1024 points extends it by the
  tile's own infimum, and that over all 4096 points it is the whole infimum. They use only that `min` and `iInf` are
  characterised by their lower bounds, so no finiteness of the entries is needed.
-/
import Idealize.ShloMosaic.PureOps.Ideal
import Idealize.ShloMosaic.Lib.ValueIdx

noncomputable section

namespace Cert.Chamfer

open Idealize.ShloMosaic Idealize.ShloMosaic.ValueIdx

/-- A batch of point clouds: 16 clouds of 4096 points in three coordinates. -/
abbrev Cloud : Shape := ⟨3, ![16, 4096, 3]⟩
/-- One tile of one cloud: 1024 consecutive points. -/
abbrev Tile : Shape := ⟨3, ![1, 1024, 3]⟩

/-- The words both programs print for 0, 2 and 16, read as extended reals. -/
abbrev zero : EReal := Ideal.ofBits .f32 0x00000000#32
abbrev two : EReal := Ideal.ofBits .f32 0x40000000#32
abbrev sixteen : EReal := Ideal.ofBits .f32 0x41800000#32

/-- The expanded squared distance between point `n` of cloud `b` of `x` and point `m` of cloud `b` of `y`. -/
def dist (x y : Cloud.Idx → EReal) (b : Fin 16) (n m : Fin 4096) : EReal :=
  ((∑ d : Fin 3, x (ix3 b n d) * x (ix3 b n d)) + (∑ d : Fin 3, y (ix3 b m d) * y (ix3 b m d)))
    - two * ∑ d : Fin 3, x (ix3 b n d) * y (ix3 b m d)

/-- Point `n`'s nearest squared distance to the other cloud. -/
def rowMin (x y : Cloud.Idx → EReal) (b : Fin 16) (n : Fin 4096) : EReal := ⨅ m : Fin 4096, dist x y b n m
/-- Point `m` of the second cloud: its nearest squared distance to the first. -/
def colMin (x y : Cloud.Idx → EReal) (b : Fin 16) (m : Fin 4096) : EReal := ⨅ n : Fin 4096, dist x y b n m

/-- The result: both sums of nearest squared distances, over sixteen. -/
def total (x y : Cloud.Idx → EReal) : EReal :=
  Ideal.div ((∑ b : Fin 16, ∑ n : Fin 4096, rowMin x y b n) + (∑ b : Fin 16, ∑ m : Fin 4096, colMin x y b m)) sixteen

/-- The same expanded squared distance inside one pair of tiles `u`, `v`: point `p` of `u` against point `q` of `v`. -/
def tileDist (u v : Tile.Idx → EReal) (p q : Fin 1024) : EReal :=
  ((∑ d : Fin 3, u (ix3 0 p d) * u (ix3 0 p d)) + (∑ d : Fin 3, v (ix3 0 q d) * v (ix3 0 q d)))
    - two * ∑ d : Fin 3, u (ix3 0 p d) * v (ix3 0 q d)

/-- The infimum of `f` over the indices below `K`. -/
def minBelow (f : Fin 4096 → EReal) (K : ℕ) : EReal := ⨅ (m : Fin 4096) (_ : m.val < K), f m

theorem le_minBelow_iff (f : Fin 4096 → EReal) (K : ℕ) (z : EReal) :
    z ≤ minBelow f K ↔ ∀ m : Fin 4096, m.val < K → z ≤ f m := by
  unfold minBelow; exact le_iInf₂_iff

/-- Over no index the infimum is the top element. -/
theorem minBelow_zero (f : Fin 4096 → EReal) : minBelow f 0 = ⊤ := by
  refine top_le_iff.mp ((le_minBelow_iff f 0 ⊤).mpr fun m h => absurd h (Nat.not_lt_zero _))

/-- Over every index it is the whole infimum. -/
theorem minBelow_full (f : Fin 4096 → EReal) : minBelow f 4096 = ⨅ m : Fin 4096, f m := by
  refine eq_of_forall_le_iff fun z => ?_
  rw [le_minBelow_iff, le_iInf_iff]
  exact ⟨fun h m => h m m.isLt, fun h m _ => h m⟩

/-- One more tile: the infimum below `1024 (k + 1)` is the smaller of the infimum below `1024 k` and the infimum over
    tile `k`. -/
theorem minBelow_add_tile (f : Fin 4096 → EReal) (k : ℕ) (hk : k < 4) :
    min (minBelow f (1024 * k)) (⨅ q : Fin 1024, f ⟨1024 * k + q.val, by have := q.isLt; omega⟩)
      = minBelow f (1024 * (k + 1)) := by
  refine eq_of_forall_le_iff fun z => ?_
  rw [le_min_iff, le_minBelow_iff, le_minBelow_iff, le_iInf_iff]
  constructor
  · rintro ⟨h1, h2⟩ m hm
    by_cases hlt : m.val < 1024 * k
    · exact h1 m hlt
    · have hq : m.val - 1024 * k < 1024 := by omega
      have := h2 ⟨m.val - 1024 * k, hq⟩
      have e : (⟨1024 * k + (m.val - 1024 * k), by omega⟩ : Fin 4096) = m := Fin.ext (by simp only []; omega)
      rwa [e] at this
  · intro h
    exact ⟨fun m hm => h m (by omega), fun q => h _ (by simp only []; have := q.isLt; omega)⟩

end Cert.Chamfer

end
-- ==== Proof.RefValue.lean ====
/-
  The reference program's result is the specification's `total`.

  The reference forms the expanded squared distances for every pair of points of a pair of clouds, reduces them by
  `min` from `+inf` along either axis, sums each array of minima from zero, multiplies each sum by one, adds the two and
  divides by sixteen. Read one operation at a time, that is `total`: a reduction by `min` from the top element over an
  axis is the infimum over that axis (both are characterised by their lower bounds), a sum from zero is the sum, and a
  product with one changes nothing.
-/
import proofs.«130808_j25074019074268_1_alg».proof.Proof.Spec
import proofs.«130808_j25074019074268_1_alg».proof.Proof.Gen.ReferenceIdeal.Read
import Idealize.ShloMosaic.PureOps.Ideal.Laws
import Idealize.ShloMosaic.PureOps.Reduce
import Idealize.ShloMosaic.Lib.ValueIdx

noncomputable section

namespace Cert.Chamfer.Ref

open Idealize.ShloMosaic Idealize.ShloMosaic.ValueIdx Cert.Chamfer
open Cert.ReferenceIdeal Cert.ReferenceIdeal.Read

/-- The word of `+inf` is the top element. -/
private theorem top_word : Ideal.ofBits .f32 0x7F800000#32 = (⊤ : EReal) := by simp [Ideal.ofBits, Ideal.ieee]
/-- The word of `1.0` is one. -/
private theorem one_word : Ideal.ofBits .f32 0x3F800000#32 = (1 : EReal) := by
  simp [Ideal.ofBits, Ideal.ieee, -EReal.coe_mul]; norm_num

/-- The array the two reductions read holds the expanded squared distance: at `(b, n, m)` the two sums of squares
    (each a sum from zero over the three coordinates, broadcast along the other cloud's axis) added, less twice the
    contraction over the three coordinates. -/
private theorem dist_eq (x y : (⟨S16x4096x3, .f32⟩ : BufTy).Contents (Elt Ideal)) (b : Fin 16) (n m : Fin 4096) :
    val_main_v12 (F := Ideal) x y (ix3 b n m) = dist x y b n m := by
  rw [val_main_v12_apply, val_main_v9_apply, val_main_v11_apply, val_main_v7_apply, val_main_v8_apply,
    val_main_v5_apply, val_main_v6_apply, val_main_v1_apply, val_main_v3_apply, val_main_v10_apply, val_main_v4_apply,
    val_main_cst_apply, val_main_cst_0_apply, val_main_cst_1_apply]
  have e1 : ∀ k : Fin 3, idx_main_v1 (idx_main_v5 (idx_main_v7 (ix3 b n m))) k = ix3 b n k := fun k =>
    funext fun a => by match a with | ⟨0, _⟩ => rfl | ⟨1, _⟩ => rfl | ⟨2, _⟩ => rfl
  have e2 : ∀ k : Fin 3, idx_main_v3 (idx_main_v6 (idx_main_v8 (ix3 b n m))) k = ix3 b m k := fun k =>
    funext fun a => by match a with | ⟨0, _⟩ => rfl | ⟨1, _⟩ => rfl | ⟨2, _⟩ => rfl
  have e3 : ∀ k : Fin 3, lidx_main_v4 (ix3 b n m) k = ix3 b n k := fun k =>
    funext fun a => by match a with | ⟨0, _⟩ => rfl | ⟨1, _⟩ => rfl | ⟨2, _⟩ => rfl
  have e4 : ∀ k : Fin 3, ridx_main_v4 (ix3 b n m) k = ix3 b m k := fun k =>
    funext fun a => by match a with | ⟨0, _⟩ => rfl | ⟨1, _⟩ => rfl | ⟨2, _⟩ => rfl
  simp only [e1, e2, e3, e4, val_main_v0_apply, val_main_v2_apply, Ideal.subf_def, Ideal.addf_def, Ideal.mulf_def,
    Ideal.ofBits_def, Ideal.ofBits_zero_f32, zero_add]
  rfl

/-- The shape conditions of the two `min` reductions, in the form that names the indices over a result index. -/
private theorem red2 : S16x4096x4096.Reduces [2] S16x4096 := by decide
private theorem red1 : S16x4096x4096.Reduces [1] S16x4096 := by decide

/-- Over `(b, n)`, along the last axis, the index with coordinate `k` is `(b, n, k)`. -/
private theorem lift2 (b : Fin 16) (n k : Fin 4096) : red2.lift (ix2 b n) k = ix3 b n k :=
  funext fun c => Fin.ext (by match c with | ⟨0, _⟩ => rfl | ⟨1, _⟩ => rfl | ⟨2, _⟩ => rfl)

/-- Over `(b, m)`, along the middle axis, the index with coordinate `k` is `(b, k, m)`. -/
private theorem lift1 (b : Fin 16) (m k : Fin 4096) : red1.lift (ix2 b m) k = ix3 b k m :=
  funext fun c => Fin.ext (by match c with | ⟨0, _⟩ => rfl | ⟨1, _⟩ => rfl | ⟨2, _⟩ => rfl)

/-- The reduction by `min` from `+inf` over the last axis is the infimum over the second cloud's points: `c` is a
    lower bound of the fold exactly when it is below the top element and below every entry, which is exactly when it
    is a lower bound of the infimum. -/
private theorem rowmin_eq (x y : (⟨S16x4096x3, .f32⟩ : BufTy).Contents (Elt Ideal)) (b : Fin 16) (n : Fin 4096) :
    val_main_v13 (F := Ideal) x y (ix2 b n) = rowMin x y b n := by
  unfold val_main_v13 rowMin
  refine (Host.reduce_eq_fold_single FloatOps.minimumf _ _ Gen.reducesTo_S16x4096x4096_S16x4096_d2 red2 Gen.h_S_
    (ix2 b n)).trans ?_
  rw [val_main_cst_2_apply, Ideal.ofBits_def, top_word]
  have e : ∀ m : Fin 4096, (val_main_v12 (F := Ideal) x y ∘ red2.lift (ix2 b n)) m = dist x y b n m := fun m =>
    (congrArg (val_main_v12 (F := Ideal) x y) (lift2 b n m)).trans (dist_eq x y b n m)
  refine eq_of_forall_le_iff fun c => ?_
  change c ≤ Finset.fold min ⊤ _ Finset.univ ↔ _
  rw [Finset.le_fold_min, le_iInf_iff]
  exact ⟨fun h m => le_of_le_of_eq (h.2 m (Finset.mem_univ _)) (e m),
    fun h => ⟨le_top, fun k _ => le_of_le_of_eq (h k) (e k).symm⟩⟩

/-- The same over the middle axis: the infimum over the first cloud's points. -/
private theorem colmin_eq (x y : (⟨S16x4096x3, .f32⟩ : BufTy).Contents (Elt Ideal)) (b : Fin 16) (m : Fin 4096) :
    val_main_v14 (F := Ideal) x y (ix2 b m) = colMin x y b m := by
  unfold val_main_v14 colMin
  refine (Host.reduce_eq_fold_single FloatOps.minimumf _ _ Gen.reducesTo_S16x4096x4096_S16x4096_d1 red1 Gen.h_S_
    (ix2 b m)).trans ?_
  rw [val_main_cst_3_apply, Ideal.ofBits_def, top_word]
  have e : ∀ n : Fin 4096, (val_main_v12 (F := Ideal) x y ∘ red1.lift (ix2 b m)) n = dist x y b n m := fun n =>
    (congrArg (val_main_v12 (F := Ideal) x y) (lift1 b m n)).trans (dist_eq x y b n m)
  refine eq_of_forall_le_iff fun c => ?_
  change c ≤ Finset.fold min ⊤ _ Finset.univ ↔ _
  rw [Finset.le_fold_min, le_iInf_iff]
  exact ⟨fun h n => le_of_le_of_eq (h.2 n (Finset.mem_univ _)) (e n),
    fun h => ⟨le_top, fun k _ => le_of_le_of_eq (h k) (e k).symm⟩⟩

/-- The reference's last stage, as a function of the two argument arrays, is `total` at its one index. -/
theorem result_eq (x y : (⟨S16x4096x3, .f32⟩ : BufTy).Contents (Elt Ideal)) :
    val_main_v20 (F := Ideal) x y = fun _ => total x y := by
  funext i
  rw [val_main_v20_apply, val_main_v19_apply, val_main_v16_apply, val_main_v18_apply, val_main_v15_apply,
    val_main_v17_apply, val_main_cst_4_apply, val_main_cst_5_apply, val_main_cst_6_apply, val_main_cst_7_apply,
    val_main_cst_8_apply]
  simp only [Ideal.hostDivf_def, Ideal.addf_def, Ideal.mulf_def, Ideal.ofBits_def, Ideal.ofBits_zero_f32, zero_add,
    one_word, one_mul]
  rw [sum_idx2, sum_idx2]
  unfold total
  simp only [rowmin_eq, colmin_eq]

end Cert.Chamfer.Ref

end
-- ==== Proof.Pieces.lean ====
/-
  What one grid point leaves behind, case by case, as terms over the body's payloads.

  The body keeps two running minima between grid points: a column of 1024 row minima, and a row of 4096 column minima
  of which each point updates the 1024 entries that face its tile of the second cloud. At each point the body either
  first resets a running minimum to `+inf` or continues from what the point before left; it always folds the tile's
  table of squared distances into both; and at the last tile of a row (of the whole cloud) it copies the row minima
  (the column minima) into the output block. Read off the stores: the row minima after the point are the update payload
  applied to the old ones (or to the reset value); the column minima are the old ones with the 1024 entries at offset
  `1024 * (point's third coordinate)` replaced by the update payload, the others kept; and the two output blocks are
  relayouts of the row and column minima as just updated.
-/
import proofs.«130808_j25074019074268_1_alg».proof.Proof.Gen.KernelIdeal.Frame
import Idealize.ShloMosaic.Lib.Pipeline.Value
import Idealize.ShloMosaic.Lib.Tactic
import Idealize.ShloMosaic.Lib.WritesUnit
import Idealize.ShloMosaic.Lib.WholeRead
import Idealize.ShloMosaic.Lib.ValueIdx

set_option maxRecDepth 16384

noncomputable section

namespace Cert.Chamfer.Pieces

open Idealize.ShloMosaic Idealize.ShloMosaic.TcCoe Idealize.ShloMosaic.Tactic Idealize.SL.Sem
open Idealize.ShloMosaic.ValueIdx
open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-! ## The running row minima -/

/-- Case B continues the row minima from the old ones. -/
theorem rowB (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x4096 .f32) (harg6 : arg6.IsWhole) (arg7 : Memref sig .tc .vmem S1024x1 .f32) (harg7 : arg7.IsWhole) (arg8 : Memref sig .tc .vmem S1x4096 .f32) (harg8 : arg8.IsWhole) (hc0 : ¬cond0_0 i) (hc1 : ¬cond0_1 i) (hc2 : ¬cond0_2 i) (hc3 : ¬cond0_3 i) (x0 x1 : Vec F S1x1024x3 .f32) (xs0 : Vec F S1024x1 .f32) (xs1 : Vec F S1x4096 .f32) :
    sout0_B_0 c i arg3 harg3 arg4 harg4 arg5 harg5 arg6 harg6 arg7 harg7 arg8 harg8 hc0 hc1 hc2 hc3 x0 x1 xs0 xs1 = k0_pay7 x0 x1 xs0 := by
  unfold sout0_B_0
  rw [View.read_writes_eq_canon _ _ _ (scover0_B_0 c i arg3 harg3 arg4 harg4 arg5 harg5 arg6 harg6 arg7 harg7 arg8 harg8 hc0 hc1 hc2 hc3 x0 x1 xs0 xs1)]
  unfold kernelRun0_B
  dsimp only
  sl_unfold_words
  rw [View.canon_unit_zero hz2]
  simp only [View.readAt_eq_ld, harg3.read_unread, harg4.read_unread, harg7.read_unread, harg8.read_unread, View.ld_unit_zero (S := S1x1024x3) hz3, View.ld_unit_zero (S := S1024x1) hz2, View.ld_unit_zero (S := S1x4096) hz2, View.readCov_unit_zero (S := S1024x1) _ hz2]

/-- Case C continues the row minima from the old ones. -/
theorem rowC (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x4096 .f32) (harg6 : arg6.IsWhole) (arg7 : Memref sig .tc .vmem S1024x1 .f32) (harg7 : arg7.IsWhole) (arg8 : Memref sig .tc .vmem S1x4096 .f32) (harg8 : arg8.IsWhole) (hc0 : ¬cond0_0 i) (hc1 : ¬cond0_1 i) (hc2 : cond0_2 i) (hc3 : ¬cond0_3 i) (x0 x1 : Vec F S1x1024x3 .f32) (xs0 : Vec F S1024x1 .f32) (xs1 : Vec F S1x4096 .f32) :
    sout0_C_0 c i arg3 harg3 arg4 harg4 arg5 harg5 arg6 harg6 arg7 harg7 arg8 harg8 hc0 hc1 hc2 hc3 x0 x1 xs0 xs1 = k0_pay7 x0 x1 xs0 := by
  unfold sout0_C_0
  rw [View.read_writes_eq_canon _ _ _ (scover0_C_0 c i arg3 harg3 arg4 harg4 arg5 harg5 arg6 harg6 arg7 harg7 arg8 harg8 hc0 hc1 hc2 hc3 x0 x1 xs0 xs1)]
  unfold kernelRun0_C
  dsimp only
  sl_unfold_words
  rw [View.canon_unit_zero hz2]
  simp only [View.readAt_eq_ld, harg3.read_unread, harg4.read_unread, harg7.read_unread, harg8.read_unread, View.ld_unit_zero (S := S1x1024x3) hz3, View.ld_unit_zero (S := S1024x1) hz2, View.ld_unit_zero (S := S1x4096) hz2, View.readCov_unit_zero (S := S1024x1) _ hz2]

/-- Case E continues the row minima from the old ones. -/
theorem rowE (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x4096 .f32) (harg6 : arg6.IsWhole) (arg7 : Memref sig .tc .vmem S1024x1 .f32) (harg7 : arg7.IsWhole) (arg8 : Memref sig .tc .vmem S1x4096 .f32) (harg8 : arg8.IsWhole) (hc0 : ¬cond0_0 i) (hc1 : ¬cond0_1 i) (hc2 : cond0_2 i) (hc3 : cond0_3 i) (x0 x1 : Vec F S1x1024x3 .f32) (xs0 : Vec F S1024x1 .f32) (xs1 : Vec F S1x4096 .f32) :
    sout0_E_0 c i arg3 harg3 arg4 harg4 arg5 harg5 arg6 harg6 arg7 harg7 arg8 harg8 hc0 hc1 hc2 hc3 x0 x1 xs0 xs1 = k0_pay7 x0 x1 xs0 := by
  unfold sout0_E_0
  rw [View.read_writes_eq_canon _ _ _ (scover0_E_0 c i arg3 harg3 arg4 harg4 arg5 harg5 arg6 harg6 arg7 harg7 arg8 harg8 hc0 hc1 hc2 hc3 x0 x1 xs0 xs1)]
  unfold kernelRun0_E
  dsimp only
  sl_unfold_words
  rw [View.canon_unit_zero hz2]
  simp only [View.readAt_eq_ld, harg3.read_unread, harg4.read_unread, harg7.read_unread, harg8.read_unread, View.ld_unit_zero (S := S1x1024x3) hz3, View.ld_unit_zero (S := S1024x1) hz2, View.ld_unit_zero (S := S1x4096) hz2, View.readCov_unit_zero (S := S1024x1) _ hz2]

/-- Case A restarts the row minima from the reset value. -/
theorem rowA (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x4096 .f32) (harg6 : arg6.IsWhole) (arg7 : Memref sig .tc .vmem S1024x1 .f32) (harg7 : arg7.IsWhole) (arg8 : Memref sig .tc .vmem S1x4096 .f32) (harg8 : arg8.IsWhole) (hc0 : cond0_0 i) (hc1 : cond0_1 i) (hc2 : ¬cond0_2 i) (hc3 : ¬cond0_3 i) (x0 x1 : Vec F S1x1024x3 .f32) :
    sout0_A_0 c i arg3 harg3 arg4 harg4 arg5 harg5 arg6 harg6 arg7 harg7 arg8 harg8 hc0 hc1 hc2 hc3 x0 x1 = k0_pay7 x0 x1 k0_pay4 := by
  unfold sout0_A_0
  rw [View.read_writes_eq_canon _ _ _ (scover0_A_0 c i arg3 harg3 arg4 harg4 arg5 harg5 arg6 harg6 arg7 harg7 arg8 harg8 hc0 hc1 hc2 hc3 x0 x1)]
  unfold kernelRun0_A
  dsimp only
  sl_unfold_words
  rw [View.canon_cons_unit_zero (S := S1024x1) hz2, View.readCov_unit_zero (S := S1024x1) _ hz2]
  simp only [View.readAt_eq_ld, harg3.read_unread, harg4.read_unread, harg7.read_unread, harg8.read_unread, View.ld_unit_zero (S := S1x1024x3) hz3, View.ld_unit_zero (S := S1024x1) hz2, View.ld_unit_zero (S := S1x4096) hz2, View.readCov_unit_zero (S := S1024x1) _ hz2]

/-- Case D restarts the row minima from the reset value. -/
theorem rowD (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x4096 .f32) (harg6 : arg6.IsWhole) (arg7 : Memref sig .tc .vmem S1024x1 .f32) (harg7 : arg7.IsWhole) (arg8 : Memref sig .tc .vmem S1x4096 .f32) (harg8 : arg8.IsWhole) (hc0 : cond0_0 i) (hc1 : ¬cond0_1 i) (hc2 : ¬cond0_2 i) (hc3 : ¬cond0_3 i) (x0 x1 : Vec F S1x1024x3 .f32) (xs1 : Vec F S1x4096 .f32) :
    sout0_D_0 c i arg3 harg3 arg4 harg4 arg5 harg5 arg6 harg6 arg7 harg7 arg8 harg8 hc0 hc1 hc2 hc3 x0 x1 xs1 = k0_pay7 x0 x1 k0_pay4 := by
  unfold sout0_D_0
  rw [View.read_writes_eq_canon _ _ _ (scover0_D_0 c i arg3 harg3 arg4 harg4 arg5 harg5 arg6 harg6 arg7 harg7 arg8 harg8 hc0 hc1 hc2 hc3 x0 x1 xs1)]
  unfold kernelRun0_D
  dsimp only
  sl_unfold_words
  rw [View.canon_cons_unit_zero (S := S1024x1) hz2, View.readCov_unit_zero (S := S1024x1) _ hz2]
  simp only [View.readAt_eq_ld, harg3.read_unread, harg4.read_unread, harg7.read_unread, harg8.read_unread, View.ld_unit_zero (S := S1x1024x3) hz3, View.ld_unit_zero (S := S1024x1) hz2, View.ld_unit_zero (S := S1x4096) hz2, View.readCov_unit_zero (S := S1024x1) _ hz2]

/-! ## The first output's block: the row minima as just updated, relaid -/

theorem out2C (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x4096 .f32) (harg6 : arg6.IsWhole) (arg7 : Memref sig .tc .vmem S1024x1 .f32) (harg7 : arg7.IsWhole) (arg8 : Memref sig .tc .vmem S1x4096 .f32) (harg8 : arg8.IsWhole) (hc0 : ¬cond0_0 i) (hc1 : ¬cond0_1 i) (hc2 : cond0_2 i) (hc3 : ¬cond0_3 i) (x0 x1 : Vec F S1x1024x3 .f32) (xs0 : Vec F S1024x1 .f32) (xs1 : Vec F S1x4096 .f32) :
    out0_C_2 c i arg3 harg3 arg4 harg4 arg5 harg5 arg6 harg6 arg7 harg7 arg8 harg8 hc0 hc1 hc2 hc3 x0 x1 xs0 xs1 = k0_pay2 (k0_pay7 x0 x1 xs0) := by
  unfold out0_C_2
  rw [View.read_writes_eq_canon _ _ _ (cover0_C_2 c i arg3 harg3 arg4 harg4 arg5 harg5 arg6 harg6 arg7 harg7 arg8 harg8 hc0 hc1 hc2 hc3 x0 x1 xs0 xs1)]
  unfold kernelRun0_C
  dsimp only
  sl_unfold_words
  rw [View.canon_unit_zero hz3]
  simp only [View.readAt_eq_ld, harg3.read_unread, harg4.read_unread, harg7.read_unread, harg8.read_unread, View.ld_unit_zero (S := S1x1024x3) hz3, View.ld_unit_zero (S := S1024x1) hz2, View.ld_unit_zero (S := S1x4096) hz2, View.readCov_unit_zero (S := S1024x1) _ hz2]

theorem out2E (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x4096 .f32) (harg6 : arg6.IsWhole) (arg7 : Memref sig .tc .vmem S1024x1 .f32) (harg7 : arg7.IsWhole) (arg8 : Memref sig .tc .vmem S1x4096 .f32) (harg8 : arg8.IsWhole) (hc0 : ¬cond0_0 i) (hc1 : ¬cond0_1 i) (hc2 : cond0_2 i) (hc3 : cond0_3 i) (x0 x1 : Vec F S1x1024x3 .f32) (xs0 : Vec F S1024x1 .f32) (xs1 : Vec F S1x4096 .f32) :
    out0_E_2 c i arg3 harg3 arg4 harg4 arg5 harg5 arg6 harg6 arg7 harg7 arg8 harg8 hc0 hc1 hc2 hc3 x0 x1 xs0 xs1 = k0_pay2 (k0_pay7 x0 x1 xs0) := by
  unfold out0_E_2
  rw [View.read_writes_eq_canon _ _ _ (cover0_E_2 c i arg3 harg3 arg4 harg4 arg5 harg5 arg6 harg6 arg7 harg7 arg8 harg8 hc0 hc1 hc2 hc3 x0 x1 xs0 xs1)]
  unfold kernelRun0_E
  dsimp only
  sl_unfold_words
  rw [View.canon_unit_zero hz3]
  simp only [View.readAt_eq_ld, harg3.read_unread, harg4.read_unread, harg7.read_unread, harg8.read_unread, View.ld_unit_zero (S := S1x1024x3) hz3, View.ld_unit_zero (S := S1024x1) hz2, View.ld_unit_zero (S := S1x4096) hz2, View.readCov_unit_zero (S := S1024x1) _ hz2]

/-! ## The running column minima -/

/-- A store of the whole row of 4096 entries reads back as its payload, whatever was there before. -/
theorem read_whole_piece (v : View sig .tc .vmem S1x4096 .f32) (f : v.ty.Contents (Elt F))
    (inb : ∀ a, (![0, 0] : Fin 2 → Nat) a + S1x4096.size a ≤ S1x4096.size a) (w : S1x4096.Idx → Elt F .f32) :
    v.read (Elt F) (v.writes (Elt F) f [⟨Rect.unit (s := S1x4096) ![0, 0] S1x4096.size inb, w⟩]) = w :=
  funext fun y => View.read_writes_cons_unit_of_mem v f inb w [] y y rfl fun a => by
    match a with
    | ⟨0, _⟩ => exact (Nat.zero_add _).symm
    | ⟨1, _⟩ => exact (Nat.zero_add _).symm

/-- The 1024 old column minima the point reads: the entries at the point's offset. -/
abbrev oldSlice (i : grid0.Coords) (old : Vec F S1x4096 .f32) : Vec F S1x1024 .f32 :=
  View.ld old (Rect.unit (s := S1x4096) (k0_off1 i) S1x1024.size (Gen.k0_off1_inb i))

/-- An entry of the old slice is the old row's entry at the point's offset. -/
theorem oldSlice_apply (i : grid0.Coords) (old : Vec F S1x4096 .f32) (q : Fin 4096) (q' : Fin 1024)
    (hq : q.val = 1024 * (i 2).val + q'.val) : oldSlice i old (ix2 0 q') = old (ix2 0 q) := by
  show old _ = old _
  congr 1
  funext a
  apply Fin.ext
  match a with
  | ⟨0, _⟩ => show k0_off1 i 0 + 1 * 0 = 0; rw [k0_off1_eq i]; rfl
  | ⟨1, _⟩ => show k0_off1 i 1 + 1 * q'.val = q.val; rw [k0_off1_eq i]; show 1024 * (i 2).val + 1 * q'.val = q.val; omega

/-- Case B, an entry facing the point's tile: the update payload. -/
theorem colB_in (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x4096 .f32) (harg6 : arg6.IsWhole) (arg7 : Memref sig .tc .vmem S1024x1 .f32) (harg7 : arg7.IsWhole) (arg8 : Memref sig .tc .vmem S1x4096 .f32) (harg8 : arg8.IsWhole) (hc0 : ¬cond0_0 i) (hc1 : ¬cond0_1 i) (hc2 : ¬cond0_2 i) (hc3 : ¬cond0_3 i) (x0 x1 : Vec F S1x1024x3 .f32) (xs0 : Vec F S1024x1 .f32) (xs1 : Vec F S1x4096 .f32) (q : Fin 4096) (q' : Fin 1024)
    (hq : q.val = 1024 * (i 2).val + q'.val) :
    sout0_B_1 c i arg3 harg3 arg4 harg4 arg5 harg5 arg6 harg6 arg7 harg7 arg8 harg8 hc0 hc1 hc2 hc3 x0 x1 xs0 xs1 (ix2 0 q) = k0_pay1 (k0_pay6 x0 x1) (oldSlice i xs1) (ix2 0 q') := by
  unfold sout0_B_1 kernelRun0_B
  dsimp only
  sl_unfold_run_names
  refine (View.read_writes_cons_unit_of_mem _ _ _ _ _ (ix2 0 q) (ix2 0 q') (k0_off1_eq i) (fun a => ?_)).trans ?_
  · match a with
    | ⟨0, _⟩ => rfl
    | ⟨1, _⟩ => exact hq
  · simp only [View.readAt_eq_ld, harg3.read_unread, harg4.read_unread, harg7.read_unread, harg8.read_unread, View.ld_unit_zero (S := S1x1024x3) hz3, View.ld_unit_zero (S := S1024x1) hz2, View.ld_unit_zero (S := S1x4096) hz2, View.readCov_unit_zero (S := S1024x1) _ hz2]

/-- Case B, any other entry: kept. -/
theorem colB_out (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x4096 .f32) (harg6 : arg6.IsWhole) (arg7 : Memref sig .tc .vmem S1024x1 .f32) (harg7 : arg7.IsWhole) (arg8 : Memref sig .tc .vmem S1x4096 .f32) (harg8 : arg8.IsWhole) (hc0 : ¬cond0_0 i) (hc1 : ¬cond0_1 i) (hc2 : ¬cond0_2 i) (hc3 : ¬cond0_3 i) (x0 x1 : Vec F S1x1024x3 .f32) (xs0 : Vec F S1024x1 .f32) (xs1 : Vec F S1x4096 .f32) (q : Fin 4096)
    (hq : q.val < 1024 * (i 2).val ∨ 1024 * (i 2).val + 1024 ≤ q.val) :
    sout0_B_1 c i arg3 harg3 arg4 harg4 arg5 harg5 arg6 harg6 arg7 harg7 arg8 harg8 hc0 hc1 hc2 hc3 x0 x1 xs0 xs1 (ix2 0 q) = xs1 (ix2 0 q) := by
  unfold sout0_B_1 kernelRun0_B
  dsimp only
  sl_unfold_run_names
  refine (View.read_writes_cons_unit_of_not_mem _ _ _ _ _ (ix2 0 q) (k0_off1_eq i) (1 : Fin 2) (by exact hq)).trans ?_
  rw [View.writes_nil, harg8.read_unread]

/-- Case C, an entry facing the point's tile: the update payload. -/
theorem colC_in (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x4096 .f32) (harg6 : arg6.IsWhole) (arg7 : Memref sig .tc .vmem S1024x1 .f32) (harg7 : arg7.IsWhole) (arg8 : Memref sig .tc .vmem S1x4096 .f32) (harg8 : arg8.IsWhole) (hc0 : ¬cond0_0 i) (hc1 : ¬cond0_1 i) (hc2 : cond0_2 i) (hc3 : ¬cond0_3 i) (x0 x1 : Vec F S1x1024x3 .f32) (xs0 : Vec F S1024x1 .f32) (xs1 : Vec F S1x4096 .f32) (q : Fin 4096) (q' : Fin 1024)
    (hq : q.val = 1024 * (i 2).val + q'.val) :
    sout0_C_1 c i arg3 harg3 arg4 harg4 arg5 harg5 arg6 harg6 arg7 harg7 arg8 harg8 hc0 hc1 hc2 hc3 x0 x1 xs0 xs1 (ix2 0 q) = k0_pay1 (k0_pay6 x0 x1) (oldSlice i xs1) (ix2 0 q') := by
  unfold sout0_C_1 kernelRun0_C
  dsimp only
  sl_unfold_run_names
  refine (View.read_writes_cons_unit_of_mem _ _ _ _ _ (ix2 0 q) (ix2 0 q') (k0_off1_eq i) (fun a => ?_)).trans ?_
  · match a with
    | ⟨0, _⟩ => rfl
    | ⟨1, _⟩ => exact hq
  · simp only [View.readAt_eq_ld, harg3.read_unread, harg4.read_unread, harg7.read_unread, harg8.read_unread, View.ld_unit_zero (S := S1x1024x3) hz3, View.ld_unit_zero (S := S1024x1) hz2, View.ld_unit_zero (S := S1x4096) hz2, View.readCov_unit_zero (S := S1024x1) _ hz2]

/-- Case C, any other entry: kept. -/
theorem colC_out (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x4096 .f32) (harg6 : arg6.IsWhole) (arg7 : Memref sig .tc .vmem S1024x1 .f32) (harg7 : arg7.IsWhole) (arg8 : Memref sig .tc .vmem S1x4096 .f32) (harg8 : arg8.IsWhole) (hc0 : ¬cond0_0 i) (hc1 : ¬cond0_1 i) (hc2 : cond0_2 i) (hc3 : ¬cond0_3 i) (x0 x1 : Vec F S1x1024x3 .f32) (xs0 : Vec F S1024x1 .f32) (xs1 : Vec F S1x4096 .f32) (q : Fin 4096)
    (hq : q.val < 1024 * (i 2).val ∨ 1024 * (i 2).val + 1024 ≤ q.val) :
    sout0_C_1 c i arg3 harg3 arg4 harg4 arg5 harg5 arg6 harg6 arg7 harg7 arg8 harg8 hc0 hc1 hc2 hc3 x0 x1 xs0 xs1 (ix2 0 q) = xs1 (ix2 0 q) := by
  unfold sout0_C_1 kernelRun0_C
  dsimp only
  sl_unfold_run_names
  refine (View.read_writes_cons_unit_of_not_mem _ _ _ _ _ (ix2 0 q) (k0_off1_eq i) (1 : Fin 2) (by exact hq)).trans ?_
  rw [View.writes_nil, harg8.read_unread]

/-- Case D, an entry facing the point's tile: the update payload. -/
theorem colD_in (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x4096 .f32) (harg6 : arg6.IsWhole) (arg7 : Memref sig .tc .vmem S1024x1 .f32) (harg7 : arg7.IsWhole) (arg8 : Memref sig .tc .vmem S1x4096 .f32) (harg8 : arg8.IsWhole) (hc0 : cond0_0 i) (hc1 : ¬cond0_1 i) (hc2 : ¬cond0_2 i) (hc3 : ¬cond0_3 i) (x0 x1 : Vec F S1x1024x3 .f32) (xs1 : Vec F S1x4096 .f32) (q : Fin 4096) (q' : Fin 1024)
    (hq : q.val = 1024 * (i 2).val + q'.val) :
    sout0_D_1 c i arg3 harg3 arg4 harg4 arg5 harg5 arg6 harg6 arg7 harg7 arg8 harg8 hc0 hc1 hc2 hc3 x0 x1 xs1 (ix2 0 q) = k0_pay1 (k0_pay6 x0 x1) (oldSlice i xs1) (ix2 0 q') := by
  unfold sout0_D_1 kernelRun0_D
  dsimp only
  sl_unfold_run_names
  refine (View.read_writes_cons_unit_of_mem _ _ _ _ _ (ix2 0 q) (ix2 0 q') (k0_off1_eq i) (fun a => ?_)).trans ?_
  · match a with
    | ⟨0, _⟩ => rfl
    | ⟨1, _⟩ => exact hq
  · simp only [View.readAt_eq_ld, harg3.read_unread, harg4.read_unread, harg7.read_unread, harg8.read_unread, View.ld_unit_zero (S := S1x1024x3) hz3, View.ld_unit_zero (S := S1024x1) hz2, View.ld_unit_zero (S := S1x4096) hz2, View.readCov_unit_zero (S := S1024x1) _ hz2]

/-- Case D, any other entry: kept. -/
theorem colD_out (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x4096 .f32) (harg6 : arg6.IsWhole) (arg7 : Memref sig .tc .vmem S1024x1 .f32) (harg7 : arg7.IsWhole) (arg8 : Memref sig .tc .vmem S1x4096 .f32) (harg8 : arg8.IsWhole) (hc0 : cond0_0 i) (hc1 : ¬cond0_1 i) (hc2 : ¬cond0_2 i) (hc3 : ¬cond0_3 i) (x0 x1 : Vec F S1x1024x3 .f32) (xs1 : Vec F S1x4096 .f32) (q : Fin 4096)
    (hq : q.val < 1024 * (i 2).val ∨ 1024 * (i 2).val + 1024 ≤ q.val) :
    sout0_D_1 c i arg3 harg3 arg4 harg4 arg5 harg5 arg6 harg6 arg7 harg7 arg8 harg8 hc0 hc1 hc2 hc3 x0 x1 xs1 (ix2 0 q) = xs1 (ix2 0 q) := by
  unfold sout0_D_1 kernelRun0_D
  dsimp only
  sl_unfold_run_names
  refine (View.read_writes_cons_unit_of_not_mem _ _ _ _ _ (ix2 0 q) (k0_off1_eq i) (1 : Fin 2) (by exact hq)).trans ?_
  rw [View.writes_nil, harg8.read_unread]

/-- Case E, an entry facing the point's tile: the update payload. -/
theorem colE_in (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x4096 .f32) (harg6 : arg6.IsWhole) (arg7 : Memref sig .tc .vmem S1024x1 .f32) (harg7 : arg7.IsWhole) (arg8 : Memref sig .tc .vmem S1x4096 .f32) (harg8 : arg8.IsWhole) (hc0 : ¬cond0_0 i) (hc1 : ¬cond0_1 i) (hc2 : cond0_2 i) (hc3 : cond0_3 i) (x0 x1 : Vec F S1x1024x3 .f32) (xs0 : Vec F S1024x1 .f32) (xs1 : Vec F S1x4096 .f32) (q : Fin 4096) (q' : Fin 1024)
    (hq : q.val = 1024 * (i 2).val + q'.val) :
    sout0_E_1 c i arg3 harg3 arg4 harg4 arg5 harg5 arg6 harg6 arg7 harg7 arg8 harg8 hc0 hc1 hc2 hc3 x0 x1 xs0 xs1 (ix2 0 q) = k0_pay1 (k0_pay6 x0 x1) (oldSlice i xs1) (ix2 0 q') := by
  unfold sout0_E_1 kernelRun0_E
  dsimp only
  sl_unfold_run_names
  refine (View.read_writes_cons_unit_of_mem _ _ _ _ _ (ix2 0 q) (ix2 0 q') (k0_off1_eq i) (fun a => ?_)).trans ?_
  · match a with
    | ⟨0, _⟩ => rfl
    | ⟨1, _⟩ => exact hq
  · simp only [View.readAt_eq_ld, harg3.read_unread, harg4.read_unread, harg7.read_unread, harg8.read_unread, View.ld_unit_zero (S := S1x1024x3) hz3, View.ld_unit_zero (S := S1024x1) hz2, View.ld_unit_zero (S := S1x4096) hz2, View.readCov_unit_zero (S := S1024x1) _ hz2]

/-- Case E, any other entry: kept. -/
theorem colE_out (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x4096 .f32) (harg6 : arg6.IsWhole) (arg7 : Memref sig .tc .vmem S1024x1 .f32) (harg7 : arg7.IsWhole) (arg8 : Memref sig .tc .vmem S1x4096 .f32) (harg8 : arg8.IsWhole) (hc0 : ¬cond0_0 i) (hc1 : ¬cond0_1 i) (hc2 : cond0_2 i) (hc3 : cond0_3 i) (x0 x1 : Vec F S1x1024x3 .f32) (xs0 : Vec F S1024x1 .f32) (xs1 : Vec F S1x4096 .f32) (q : Fin 4096)
    (hq : q.val < 1024 * (i 2).val ∨ 1024 * (i 2).val + 1024 ≤ q.val) :
    sout0_E_1 c i arg3 harg3 arg4 harg4 arg5 harg5 arg6 harg6 arg7 harg7 arg8 harg8 hc0 hc1 hc2 hc3 x0 x1 xs0 xs1 (ix2 0 q) = xs1 (ix2 0 q) := by
  unfold sout0_E_1 kernelRun0_E
  dsimp only
  sl_unfold_run_names
  refine (View.read_writes_cons_unit_of_not_mem _ _ _ _ _ (ix2 0 q) (k0_off1_eq i) (1 : Fin 2) (by exact hq)).trans ?_
  rw [View.writes_nil, harg8.read_unread]

/-- Case A, an entry facing the point's tile: the update payload over the reset value. -/
theorem colA_in (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x4096 .f32) (harg6 : arg6.IsWhole) (arg7 : Memref sig .tc .vmem S1024x1 .f32) (harg7 : arg7.IsWhole) (arg8 : Memref sig .tc .vmem S1x4096 .f32) (harg8 : arg8.IsWhole) (hc0 : cond0_0 i) (hc1 : cond0_1 i) (hc2 : ¬cond0_2 i) (hc3 : ¬cond0_3 i) (x0 x1 : Vec F S1x1024x3 .f32) (q : Fin 4096) (q' : Fin 1024)
    (hq : q.val = 1024 * (i 2).val + q'.val) :
    sout0_A_1 c i arg3 harg3 arg4 harg4 arg5 harg5 arg6 harg6 arg7 harg7 arg8 harg8 hc0 hc1 hc2 hc3 x0 x1 (ix2 0 q) = k0_pay1 (k0_pay6 x0 x1) (oldSlice i k0_pay5) (ix2 0 q') := by
  unfold sout0_A_1 kernelRun0_A
  dsimp only
  sl_unfold_run_names
  refine (View.read_writes_cons_unit_of_mem _ _ _ _ _ (ix2 0 q) (ix2 0 q') (k0_off1_eq i) (fun a => ?_)).trans ?_
  · match a with
    | ⟨0, _⟩ => rfl
    | ⟨1, _⟩ => exact hq
  · simp only [View.readAt_eq_ld, harg3.read_unread, harg4.read_unread, View.ld_unit_zero (S := S1x1024x3) hz3]
    exact congrArg (fun o => k0_pay1 (k0_pay6 x0 x1) (oldSlice i o) (ix2 0 q')) (read_whole_piece _ _ _ _)

/-- Case A, any other entry: the reset value. -/
theorem colA_out (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x4096 .f32) (harg6 : arg6.IsWhole) (arg7 : Memref sig .tc .vmem S1024x1 .f32) (harg7 : arg7.IsWhole) (arg8 : Memref sig .tc .vmem S1x4096 .f32) (harg8 : arg8.IsWhole) (hc0 : cond0_0 i) (hc1 : cond0_1 i) (hc2 : ¬cond0_2 i) (hc3 : ¬cond0_3 i) (x0 x1 : Vec F S1x1024x3 .f32) (q : Fin 4096)
    (hq : q.val < 1024 * (i 2).val ∨ 1024 * (i 2).val + 1024 ≤ q.val) :
    sout0_A_1 c i arg3 harg3 arg4 harg4 arg5 harg5 arg6 harg6 arg7 harg7 arg8 harg8 hc0 hc1 hc2 hc3 x0 x1 (ix2 0 q) = k0_pay5 (ix2 0 q) := by
  unfold sout0_A_1 kernelRun0_A
  dsimp only
  sl_unfold_run_names
  refine (View.read_writes_cons_unit_of_not_mem _ _ _ _ _ (ix2 0 q) (k0_off1_eq i) (1 : Fin 2) (by exact hq)).trans ?_
  exact congrFun (read_whole_piece _ _ _ _) _

/-! ## The second output's block: the column minima as just updated, relaid -/

theorem out3E (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x4096 .f32) (harg6 : arg6.IsWhole) (arg7 : Memref sig .tc .vmem S1024x1 .f32) (harg7 : arg7.IsWhole) (arg8 : Memref sig .tc .vmem S1x4096 .f32) (harg8 : arg8.IsWhole) (hc0 : ¬cond0_0 i) (hc1 : ¬cond0_1 i) (hc2 : cond0_2 i) (hc3 : cond0_3 i) (x0 x1 : Vec F S1x1024x3 .f32) (xs0 : Vec F S1024x1 .f32) (xs1 : Vec F S1x4096 .f32) :
    out0_E_3 c i arg3 harg3 arg4 harg4 arg5 harg5 arg6 harg6 arg7 harg7 arg8 harg8 hc0 hc1 hc2 hc3 x0 x1 xs0 xs1 = k0_pay3 (sout0_E_1 c i arg3 harg3 arg4 harg4 arg5 harg5 arg6 harg6 arg7 harg7 arg8 harg8 hc0 hc1 hc2 hc3 x0 x1 xs0 xs1) := by
  unfold out0_E_3 sout0_E_1
  rw [View.read_writes_eq_canon _ _ _ (cover0_E_3 c i arg3 harg3 arg4 harg4 arg5 harg5 arg6 harg6 arg7 harg7 arg8 harg8 hc0 hc1 hc2 hc3 x0 x1 xs0 xs1)]
  unfold kernelRun0_E
  dsimp only
  sl_unfold_run_names
  rw [View.canon_unit_zero hz3]
  simp only [View.readAt_eq_ld, View.ld_unit_zero (S := S1x4096) hz2]

end Cert.Chamfer.Pieces

end
-- ==== Proof.Payload.lean ====
/-
  The kernel body's arithmetic, read at an index over the extended reals.

  One grid point sees a tile `u` of 1024 points of the first cloud and a tile `v` of 1024 points of the second. Its
  payloads are: the 1024 x 1024 table of expanded squared distances between the two tiles; the update of the running
  row minima (the old value against the least entry of the table's row); the update of the running column minima (the
  old value against the least entry of the table's column); the two relayouts that copy the running minima into the
  output blocks; and the two resets to `+inf`. A narrowing of the tiles to a shorter float format before the product
  is the identity on extended reals, and a product accumulated into zero is the plain sum.
-/
import proofs.«130808_j25074019074268_1_alg».proof.Proof.Spec
import proofs.«130808_j25074019074268_1_alg».proof.Proof.Gen.KernelIdeal.Skeleton
import Idealize.ShloMosaic.PureOps.Ideal.Laws
import Idealize.ShloMosaic.PureOps.Reduce
import Idealize.ShloMosaic.Lib.ValueIdx
import Idealize.ShloMosaic.Lib.ValueLayout
import Idealize.ShloMosaic.Lib.Pipeline.Value

noncomputable section

namespace Cert.Chamfer.Pay

open Idealize.ShloMosaic Idealize.ShloMosaic.ValueIdx Cert.Chamfer
open Cert.KernelIdeal Cert.KernelIdeal.Gen

/-! ## The start of a minimum, and a minimum's lower bounds -/

/-- The word the kernel prints for the start of a minimum is the top element. -/
private theorem top_bits : Ideal.ofBits .f32 0x7F800000#32 = (⊤ : EReal) := by simp [Ideal.ofBits, Ideal.ieee]

/-- A lower bound of a fold of the minimum is a lower bound of the start and of every entry. -/
private theorem le_fold_minimumf {ι : Type} (s : Finset ι) (b : EReal) (f : ι → EReal) (z : EReal) :
    z ≤ s.fold (FloatOps.minimumf (F := Ideal) (φ := .f32)) b f ↔ z ≤ b ∧ ∀ x ∈ s, z ≤ f x :=
  Finset.le_fold_min (s := s) (b := b) (f := f) (c := z)

/-- The least entry of a row of a table: the minimum over the second axis, started at the top element. -/
private theorem rowmin_apply (D : FVec Ideal S1024x1024 .f32) (h : S1024x1024.Reduces [1] S1024) (hφ : FKind.Formats .f32)
    (hacc : (0x7F800000#32 : BitVec 32) = 0x7F800000#32) (r : Fin 1024) :
    multiReduction .minimumf [1] S1024 D 0x7F800000#32 h hφ hacc (ix1 r) = ⨅ q : Fin 1024, D (ix2 r q) := by
  refine (multiReduction_minimumf_eq_fold D _ h hφ hacc (ix1 r)).trans ?_
  refine (h.fold_filter_drop_single _ _ D (ix1 r)).trans ?_
  refine eq_of_forall_le_iff fun z => ?_
  refine (le_fold_minimumf _ _ _ z).trans ?_
  rw [le_iInf_iff]
  have hl : ∀ q : Fin 1024, h.lift (ix1 r) q = ix2 r q := fun q =>
    funext fun a => Fin.ext (by match a with | ⟨0, _⟩ => rfl | ⟨1, _⟩ => rfl)
  constructor
  · rintro ⟨_, h2⟩ q
    exact le_of_le_of_eq (h2 q (Finset.mem_univ _)) (congrArg D (hl q))
  · intro h2
    refine ⟨?_, fun q _ => le_of_le_of_eq (h2 q) (congrArg D (hl q)).symm⟩
    show z ≤ Ideal.ofBits .f32 0x7F800000#32
    rw [top_bits]; exact le_top

/-- The least entry of a column of a table: the minimum over the first axis, started at the top element. -/
private theorem colmin_apply (D : FVec Ideal S1024x1024 .f32) (h : S1024x1024.Reduces [0] S1024) (hφ : FKind.Formats .f32)
    (hacc : (0x7F800000#32 : BitVec 32) = 0x7F800000#32) (q : Fin 1024) :
    multiReduction .minimumf [0] S1024 D 0x7F800000#32 h hφ hacc (ix1 q) = ⨅ p : Fin 1024, D (ix2 p q) := by
  refine (multiReduction_minimumf_eq_fold D _ h hφ hacc (ix1 q)).trans ?_
  refine (h.fold_filter_drop_single _ _ D (ix1 q)).trans ?_
  refine eq_of_forall_le_iff fun z => ?_
  refine (le_fold_minimumf _ _ _ z).trans ?_
  rw [le_iInf_iff]
  have hl : ∀ p : Fin 1024, h.lift (ix1 q) p = ix2 p q := fun p =>
    funext fun a => Fin.ext (by match a with | ⟨0, _⟩ => rfl | ⟨1, _⟩ => rfl)
  constructor
  · rintro ⟨_, h2⟩ p
    exact le_of_le_of_eq (h2 p (Finset.mem_univ _)) (congrArg D (hl p))
  · intro h2
    refine ⟨?_, fun p _ => le_of_le_of_eq (h2 p) (congrArg D (hl p)).symm⟩
    show z ≤ Ideal.ofBits .f32 0x7F800000#32
    rw [top_bits]; exact le_top

/-! ## Relayouts read at an index -/

/-- A vector laid out as a column: entry `(i, u)` of the column is entry `i` of the vector. -/
private theorem shapeCast_a_a1_apply {a : ℕ} {α : Type} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- One column repeated over many: entry `(p, c)` of the result is entry `p` of the column. -/
private theorem broadcastTo_a1_ab_apply {a b : ℕ} {α : Type} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum over the three coordinates of a point: the lane sum of a 1024 x 3 table at row `r`. -/
private theorem lanesum_apply (x : FVec Ideal S1024x3 .f32) (h : S1024x3.Reduces [1] S1024) (hφ : FKind.Formats .f32)
    (hacc : (0x00000000#32 : BitVec 32) = 0x00000000#32) (r : Fin 1024) :
    multiReduction .add [1] S1024 x 0x00000000#32 h hφ hacc (ix1 r) = ∑ d : Fin 3, x (ix2 r d) := by
  refine (Ideal.multiReduction_add_single x 0x00000000#32 h hφ hacc (ix1 r)).trans ?_
  refine Finset.sum_congr rfl fun d _ => ?_
  exact congrArg x (funext fun a => Fin.ext (by match a with | ⟨0, _⟩ => rfl | ⟨1, _⟩ => rfl))

/-! ## The product of the two tiles at an index -/

private theorem mm_lhs_0 (i : S1024x1024.Idx) (q : dot_S1024x3_S1024x3_S1024x1024_1_1_0_0_n_n.contr.Idx) :
    (dot_S1024x3_S1024x3_S1024x1024_1_1_0_0_n_n.lhsIdx i q 0).val = (i 0).val := by
  unfold DotDims.lhsIdx
  rw [dif_neg (show ¬(0 : Fin S1024x3.rank) ∈ dot_S1024x3_S1024x3_S1024x1024_1_1_0_0_n_n.lhsBatch by decide), dif_pos (show (0 : Fin S1024x3.rank) ∈ dot_S1024x3_S1024x3_S1024x1024_1_1_0_0_n_n.lhsNonContracting by decide)]
  rfl
private theorem mm_lhs_1 (i : S1024x1024.Idx) (q : dot_S1024x3_S1024x3_S1024x1024_1_1_0_0_n_n.contr.Idx) :
    (dot_S1024x3_S1024x3_S1024x1024_1_1_0_0_n_n.lhsIdx i q 1).val = (q ⟨0, by decide⟩).val :=
  dot_S1024x3_S1024x3_S1024x1024_1_1_0_0_n_n.lhsIdx_val_of_single rfl i q
private theorem mm_rhs_0 (i : S1024x1024.Idx) (q : dot_S1024x3_S1024x3_S1024x1024_1_1_0_0_n_n.contr.Idx) :
    (dot_S1024x3_S1024x3_S1024x1024_1_1_0_0_n_n.rhsIdx i q 0).val = (i 1).val := by
  unfold DotDims.rhsIdx
  rw [dif_neg (show ¬(0 : Fin S1024x3.rank) ∈ dot_S1024x3_S1024x3_S1024x1024_1_1_0_0_n_n.rhsBatch by decide), dif_pos (show (0 : Fin S1024x3.rank) ∈ dot_S1024x3_S1024x3_S1024x1024_1_1_0_0_n_n.rhsNonContracting by decide)]
  rfl
private theorem mm_rhs_1 (i : S1024x1024.Idx) (q : dot_S1024x3_S1024x3_S1024x1024_1_1_0_0_n_n.contr.Idx) :
    (dot_S1024x3_S1024x3_S1024x1024_1_1_0_0_n_n.rhsIdx i q 1).val = (q ⟨0, by decide⟩).val :=
  dot_S1024x3_S1024x3_S1024x1024_1_1_0_0_n_n.rhsIdx_val_of_single rfl i q

/-- The product of the two tiles accumulated into zero: entry `(p, q)` is the inner product of row `p` of the first
    with row `q` of the second. -/
private theorem mm_apply {φ₁ φ₂ : FTy} (a : FVec Ideal S1024x3 φ₁) (b : FVec Ideal S1024x3 φ₂) (p q : Fin 1024) :
    matmul dot_S1024x3_S1024x3_S1024x1024_1_1_0_0_n_n none a b (constant (F := Ideal) S1024x1024 .f32 0x00000000#32) (ix2 p q)
      = ∑ d : Fin 3, a (ix2 p d) * b (ix2 q d) := by
  refine (Ideal.matmul_constant_zero_apply dot_S1024x3_S1024x3_S1024x1024_1_1_0_0_n_n none a b (ix2 p q)).trans ?_
  rw [← Equiv.sum_comp (ValueIdx.contrEquiv1 dot_S1024x3_S1024x3_S1024x1024_1_1_0_0_n_n 3 rfl rfl).symm]
  refine Finset.sum_congr rfl fun k _ => ?_
  have hk := ValueIdx.contrEquiv1_symm_val dot_S1024x3_S1024x3_S1024x1024_1_1_0_0_n_n 3 rfl rfl k
  have el : dot_S1024x3_S1024x3_S1024x1024_1_1_0_0_n_n.lhsIdx (ix2 p q) ((ValueIdx.contrEquiv1 dot_S1024x3_S1024x3_S1024x1024_1_1_0_0_n_n 3 rfl rfl).symm k) = ix2 p k := funext fun c => Fin.ext (by
    match c with
    | ⟨0, _⟩ => exact mm_lhs_0 _ _
    | ⟨1, _⟩ => exact (mm_lhs_1 _ _).trans hk)
  have er : dot_S1024x3_S1024x3_S1024x1024_1_1_0_0_n_n.rhsIdx (ix2 p q) ((ValueIdx.contrEquiv1 dot_S1024x3_S1024x3_S1024x1024_1_1_0_0_n_n 3 rfl rfl).symm k) = ix2 q k := funext fun c => Fin.ext (by
    match c with
    | ⟨0, _⟩ => exact mm_rhs_0 _ _
    | ⟨1, _⟩ => exact (mm_rhs_1 _ _).trans hk)
  rw [el, er]

/-- The table of squared distances between the two tiles. -/
theorem dist_tile (u v : Vec Ideal S1x1024x3 .f32) (p q : Fin 1024) :
    k0_pay6 (F := Ideal) u v (ix2 p q) = tileDist u v p q := by
  unfold k0_pay6 tileDist
  refine (subf_apply _ _ _).trans ?_
  refine congrArg₂ (· - ·) ?_ ?_
  · refine (addf_apply _ _ _).trans ?_
    refine congrArg₂ (· + ·) ?_ ?_
    · refine (broadcastTo_a1_ab_apply _ _ p q).trans ?_
      refine (shapeCast_a_a1_apply _ _ p 0).trans ?_
      refine (lanesum_apply _ _ _ _ p).trans ?_
      refine Finset.sum_congr rfl fun d _ => ?_
      refine (mulf_apply _ _ _).trans ?_
      exact congrArg₂ (· * ·) (shapeCast_1ab_ab_apply u _ p d) (shapeCast_1ab_ab_apply u _ p d)
    · refine (broadcastTo_1b_ab_apply _ _ p q).trans ?_
      refine (transpose_ix2_apply _ _ 0 q).trans ?_
      refine (shapeCast_a_a1_apply _ _ q 0).trans ?_
      refine (lanesum_apply _ _ _ _ q).trans ?_
      refine Finset.sum_congr rfl fun d _ => ?_
      refine (mulf_apply _ _ _).trans ?_
      exact congrArg₂ (· * ·) (shapeCast_1ab_ab_apply v _ q d) (shapeCast_1ab_ab_apply v _ q d)
  · refine (mulf_apply _ _ _).trans ?_
    refine congrArg₂ (· * ·) rfl ?_
    refine (mm_apply _ _ p q).trans ?_
    refine Finset.sum_congr rfl fun d _ => ?_
    exact congrArg₂ (· * ·) ((truncf_apply (φ := .f32) (ψ := .bf16) _ _ _).trans (shapeCast_1ab_ab_apply u _ p d))
      ((truncf_apply (φ := .f32) (ψ := .bf16) _ _ _).trans (shapeCast_1ab_ab_apply v _ q d))

/-- The running row minimum after this tile: the old one against the least entry of row `r` of the table. -/
theorem row_update (u v : Vec Ideal S1x1024x3 .f32) (old : Vec Ideal S1024x1 .f32) (r : Fin 1024) (c : Fin 1) :
    k0_pay7 (F := Ideal) u v old (ix2 r c) = min (old (ix2 r c)) (⨅ q : Fin 1024, tileDist u v r q) := by
  unfold k0_pay7
  rw [shapeCast_self]
  refine (minimumf_apply _ _ _).trans ?_
  refine congrArg (min (old (ix2 r c))) ?_
  refine (shapeCast_a_a1_apply _ _ r c).trans ?_
  refine (rowmin_apply (k0_pay6 (F := Ideal) u v) _ _ _ r).trans ?_
  exact iInf_congr fun q => dist_tile u v r q

/-- The running column minimum after this tile, for any table `D`: the old one against the least entry of column `q`. -/
theorem col_update (D : FVec Ideal S1024x1024 .f32) (old : Vec Ideal S1x1024 .f32) (c : Fin 1) (q : Fin 1024) :
    k0_pay1 (F := Ideal) D old (ix2 c q) = min (old (ix2 c q)) (⨅ p : Fin 1024, D (ix2 p q)) := by
  unfold k0_pay1
  rw [shapeCast_self]
  refine (minimumf_apply _ _ _).trans ?_
  refine congrArg (min (old (ix2 c q))) ?_
  refine (shapeCast_a_1a_apply _ _ c q).trans ?_
  exact colmin_apply D _ _ _ q

/-- The row minima laid out as an output block: entry `r` of the block is row `r` of the column vector. -/
theorem out_row (w : Vec Ideal S1024x1 .f32) (a b : Fin 1) (r : Fin 1024) :
    k0_pay2 (F := Ideal) w (ix3 a b r) = w (ix2 r 0) := by
  unfold k0_pay2
  refine (shapeCast_ab_1ab_apply _ _ a b r).trans ?_
  refine (transpose_ix2_apply w _ b r).trans ?_
  have hb : b = 0 := Subsingleton.elim _ _
  rw [hb]

/-- The column minima laid out as an output block. -/
theorem out_col (w : Vec Ideal S1x4096 .f32) (a b : Fin 1) (q : Fin 4096) :
    k0_pay3 (F := Ideal) w (ix3 a b q) = w (ix2 0 q) := by
  unfold k0_pay3
  refine (shapeCast_ab_1ab_apply w _ a b q).trans ?_
  have hb : b = 0 := Subsingleton.elim _ _
  rw [hb]

/-- The reset of the row minima is the top element everywhere. -/
theorem reset_row (j : S1024x1.Idx) : k0_pay4 (F := Ideal) j = ⊤ := by
  unfold k0_pay4
  rw [shapeCast_self]
  exact top_bits

/-- The reset of the column minima is the top element everywhere. -/
theorem reset_col (j : S1x4096.Idx) : k0_pay5 (F := Ideal) j = ⊤ := by
  unfold k0_pay5
  rw [shapeCast_self]
  exact top_bits

end Cert.Chamfer.Pay

end
-- ==== Proof.Invariant.lean ====
/-
  What the two running minima hold after each grid point, and so what the output blocks hold where they are written.

  The grid runs over (cloud, tile of the first cloud, tile of the second cloud), the last coordinate fastest, so point
  `t` is cloud `t / 16`, first-cloud tile `t / 4 % 4`, second-cloud tile `t % 4`. After point `t` the running row minima
  hold, for each of the 1024 points of the current first-cloud tile, the least squared distance to the points of the
  second cloud seen so far in this row of tiles (the first `1024 (t % 4 + 1)`); the running column minima hold, for
  each point `q` of the second cloud, the least squared distance to the points of the first cloud seen so far: one
  more tile for the columns the current row of tiles has already passed. Both by induction on the point. At the end
  of a row of tiles the first output's block is therefore the row minima over the whole second cloud, and at the end
  of a cloud the second output's block is the column minima over the whole first cloud.
-/
import proofs.«130808_j25074019074268_1_alg».proof.Proof.Spec
import proofs.«130808_j25074019074268_1_alg».proof.Proof.Pieces
import proofs.«130808_j25074019074268_1_alg».proof.Proof.Payload
import proofs.«130808_j25074019074268_1_alg».proof.Proof.Gen.KernelIdeal.Frame
import Idealize.ShloMosaic.Lib.ValueIdx

set_option maxRecDepth 16384

noncomputable section

namespace Cert.Chamfer.Inv

open Idealize.ShloMosaic Idealize.ShloMosaic.TcCoe Idealize.SL.Sem
open Idealize.ShloMosaic.ValueIdx Cert.Chamfer
open Cert.KernelIdeal Cert.KernelIdeal.Gen

variable (m : (ℓ : Loc nD τ sig) → Buf (Elt Ideal) ℓ)

/-- The two clouds as the region finds them. -/
abbrev xa (c : Dev nD) : Vec Ideal S16x4096x3 .f32 := V m c main_arg0
abbrev ya (c : Dev nD) : Vec Ideal S16x4096x3 .f32 := V m c main_arg1

theorem N256 : cfg0.N = 256 := N_0

theorem lt256 (t : Fin cfg0.N) : t.val < 256 := lt_of_lt_of_eq t.isLt N256

/-- The cloud a grid point works on. -/
abbrev cloudOf (t : Fin cfg0.N) : Fin 16 := ⟨t.val / 16, by have := lt256 t; omega⟩
/-- Point `r` of the point's first-cloud tile, as a point of the cloud. -/
abbrev rowOf (t : Fin cfg0.N) (r : Fin 1024) : Fin 4096 := ⟨1024 * (t.val / 4 % 4) + r.val, by have := r.isLt; omega⟩
/-- Point `q` of the point's second-cloud tile, as a point of the cloud. -/
abbrev colOf (t : Fin cfg0.N) (q : Fin 1024) : Fin 4096 := ⟨1024 * (t.val % 4) + q.val, by have := q.isLt; omega⟩

/-! ## The grid point's coordinates and the two input tiles -/

/-- The fastest grid coordinate is the second-cloud tile. -/
theorem coord2 : ∀ t : Fin cfg0.N, ((grid0.coords t) 2).val = t.val % 4 :=
  (by decide +kernel : ∀ t : Fin grid0.N, ((grid0.coords t) 2).val = t.val % 4)

/-- The first cloud's tile at a point: cloud `t / 16`, tile `t / 4 % 4`. -/
theorem index0 : ∀ t : Fin cfg0.N, win0_0.index t 0 = t.val / 16 ∧ win0_0.index t 1 = t.val / 4 % 4 ∧ win0_0.index t 2 = 0 :=
  (by decide +kernel : ∀ t : Fin grid0.N, win0_0.index t 0 = t.val / 16 ∧ win0_0.index t 1 = t.val / 4 % 4 ∧ win0_0.index t 2 = 0)

/-- The second cloud's tile at a point: cloud `t / 16`, tile `t % 4`. -/
theorem index1 : ∀ t : Fin cfg0.N, win0_1.index t 0 = t.val / 16 ∧ win0_1.index t 1 = t.val % 4 ∧ win0_1.index t 2 = 0 :=
  (by decide +kernel : ∀ t : Fin grid0.N, win0_1.index t 0 = t.val / 16 ∧ win0_1.index t 1 = t.val % 4 ∧ win0_1.index t 2 = 0)

/-- The point's tile of the first cloud and of the second, at their literal type. -/
abbrev ublk (c : Dev nD) (t : Fin cfg0.N) : Vec Ideal S1x1024x3 .f32 := iblk m c 0 t
abbrev vblk (c : Dev nD) (t : Fin cfg0.N) : Vec Ideal S1x1024x3 .f32 := iblk m c 1 t

/-- An entry of the first tile is the first cloud's entry at the tile's offset. -/
theorem ublk_apply (c : Dev nD) (t : Fin cfg0.N) (p : Fin 1024) (d : Fin 3) :
    ublk m c t (ix3 0 p d) = xa m c (ix3 (cloudOf t) (rowOf t p) d) := by
  show iblk m c 0 t (ix3 0 p d) = V m c main_arg0 _
  unfold iblk
  rw [View.read_apply]
  show V m c main_arg0 _ = V m c main_arg0 _
  congr 1
  funext a
  apply Fin.ext
  obtain ⟨h0, h1, h2⟩ := index0 t
  match a with
  | ⟨0, _⟩ => show win0_0.index t 0 * 1 + 1 * 0 = t.val / 16; rw [h0]; omega
  | ⟨1, _⟩ => show win0_0.index t 1 * 1024 + 1 * p.val = 1024 * (t.val / 4 % 4) + p.val; rw [h1]; omega
  | ⟨2, _⟩ => show win0_0.index t 2 * 3 + 1 * d.val = d.val; rw [h2]; omega

/-- An entry of the second tile is the second cloud's entry at the tile's offset. -/
theorem vblk_apply (c : Dev nD) (t : Fin cfg0.N) (q : Fin 1024) (d : Fin 3) :
    vblk m c t (ix3 0 q d) = ya m c (ix3 (cloudOf t) (colOf t q) d) := by
  show iblk m c 1 t (ix3 0 q d) = V m c main_arg1 _
  unfold iblk
  rw [View.read_apply]
  show V m c main_arg1 _ = V m c main_arg1 _
  congr 1
  funext a
  apply Fin.ext
  obtain ⟨h0, h1, h2⟩ := index1 t
  match a with
  | ⟨0, _⟩ => show win0_1.index t 0 * 1 + 1 * 0 = t.val / 16; rw [h0]; omega
  | ⟨1, _⟩ => show win0_1.index t 1 * 1024 + 1 * q.val = 1024 * (t.val % 4) + q.val; rw [h1]; omega
  | ⟨2, _⟩ => show win0_1.index t 2 * 3 + 1 * d.val = d.val; rw [h2]; omega

/-- So the tile's table of squared distances is the clouds' table at the tiles' offsets. -/
theorem tileDist_eq (c : Dev nD) (t : Fin cfg0.N) (p q : Fin 1024) :
    tileDist (ublk m c t) (vblk m c t) p q = dist (xa m c) (ya m c) (cloudOf t) (rowOf t p) (colOf t q) := by
  unfold tileDist dist
  simp only [ublk_apply, vblk_apply]

/-! ## The running row minima -/

/-- The running row and column minima after point `n`. -/
abbrev rowAcc (c : Dev nD) (n : ℕ) (h : n < cfg0.N) : Vec Ideal S1024x1 .f32 := (outsAt0 m c n h).2.2.1
abbrev colAcc (c : Dev nD) (n : ℕ) (h : n < cfg0.N) : Vec Ideal S1x4096 .f32 := (outsAt0 m c n h).2.2.2

/-- The least entry of row `r` of the point's table. -/
abbrev tileRow (c : Dev nD) (t : Fin cfg0.N) (r : Fin 1024) : EReal :=
  ⨅ q : Fin 1024, tileDist (ublk m c t) (vblk m c t) r q

/-- At the first tile of a row of tiles the row minima restart from the top element. -/
theorem rowAcc_reset (c : Dev nD) (t : Fin cfg0.N) (h0 : t.val % 4 = 0) (r : Fin 1024) :
    rowAcc m c t.val t.isLt (ix2 r 0) = min ⊤ (tileRow m c t r) := by
  have h2 : ¬t.val % 4 = 3 := by omega
  have h3 : ¬t.val % 16 = 15 := by omega
  show (outsAt0 m c t.val t.isLt).2.2.1 (ix2 r 0) = _
  by_cases h1 : t.val % 16 = 0
  · rw [outsAt0_A m c t h0 h1 h2 h3]
    dsimp only
    rw [Pieces.rowA]
    refine (Pay.row_update (ublk m c t) (vblk m c t) _ r 0).trans ?_
    rw [Pay.reset_row]
  · rw [outsAt0_D m c t h0 h1 h2 h3]
    dsimp only
    rw [Pieces.rowD]
    refine (Pay.row_update (ublk m c t) (vblk m c t) _ r 0).trans ?_
    rw [Pay.reset_row]

/-- At any other tile they continue from the point before. -/
theorem rowAcc_step (c : Dev nD) (t : Fin cfg0.N) (h0 : ¬t.val % 4 = 0) (r : Fin 1024) :
    rowAcc m c t.val t.isLt (ix2 r 0)
      = min (rowAcc m c (t.val - 1) (Nat.lt_of_le_of_lt (Nat.sub_le _ _) t.isLt) (ix2 r 0)) (tileRow m c t r) := by
  have h1 : ¬t.val % 16 = 0 := by omega
  show (outsAt0 m c t.val t.isLt).2.2.1 (ix2 r 0) = _
  by_cases h2 : t.val % 4 = 3
  · by_cases h3 : t.val % 16 = 15
    · rw [outsAt0_E m c t h0 h1 h2 h3]
      dsimp only
      rw [Pieces.rowE]
      exact Pay.row_update (ublk m c t) (vblk m c t) _ r 0
    · rw [outsAt0_C m c t h0 h1 h2 h3]
      dsimp only
      rw [Pieces.rowC]
      exact Pay.row_update (ublk m c t) (vblk m c t) _ r 0
  · have h3 : ¬t.val % 16 = 15 := by omega
    rw [outsAt0_B m c t h0 h1 h2 h3]
    dsimp only
    rw [Pieces.rowB]
    exact Pay.row_update (ublk m c t) (vblk m c t) _ r 0

/-- The row of the clouds' table that point `r` of the current first-cloud tile sees. -/
abbrev rowF (c : Dev nD) (t : Fin cfg0.N) (r : Fin 1024) : Fin 4096 → EReal :=
  fun mm => dist (xa m c) (ya m c) (cloudOf t) (rowOf t r) mm

/-- Folding in the point's tile extends the running row minimum by one tile of the second cloud. -/
theorem row_at (c : Dev nD) (t : Fin cfg0.N) (r : Fin 1024) (X : EReal)
    (hX : X = minBelow (rowF m c t r) (1024 * (t.val % 4))) :
    min X (tileRow m c t r) = minBelow (rowF m c t r) (1024 * (t.val % 4 + 1)) := by
  have e : tileRow m c t r = ⨅ q : Fin 1024, rowF m c t r ⟨1024 * (t.val % 4) + q.val, by have := q.isLt; omega⟩ :=
    iInf_congr fun q => tileDist_eq m c t r q
  rw [e, hX]
  exact minBelow_add_tile _ _ (by omega)

/-- After point `n` the running row minima are the minima over the first `1024 (n % 4 + 1)` points of the second cloud. -/
theorem row_inv (c : Dev nD) (r : Fin 1024) : ∀ (n : ℕ) (h : n < cfg0.N),
    rowAcc m c n h (ix2 r 0) = minBelow (rowF m c ⟨n, h⟩ r) (1024 * (n % 4 + 1)) := by
  intro n
  induction n with
  | zero =>
    intro h
    rw [rowAcc_reset m c ⟨0, h⟩ rfl r]
    exact row_at m c ⟨0, h⟩ r ⊤ (minBelow_zero _).symm
  | succ n ih =>
    intro h
    by_cases h0 : (n + 1) % 4 = 0
    · rw [rowAcc_reset m c ⟨n + 1, h⟩ h0 r]
      refine row_at m c ⟨n + 1, h⟩ r ⊤ ?_
      show ⊤ = minBelow _ (1024 * ((n + 1) % 4))
      rw [h0]
      exact (minBelow_zero _).symm
    · rw [rowAcc_step m c ⟨n + 1, h⟩ h0 r]
      refine row_at m c ⟨n + 1, h⟩ r _ ?_
      have e1 : cloudOf (⟨n, Nat.lt_of_succ_lt h⟩ : Fin cfg0.N) = cloudOf ⟨n + 1, h⟩ :=
        Fin.ext (by show n / 16 = (n + 1) / 16; omega)
      have e2 : rowOf (⟨n, Nat.lt_of_succ_lt h⟩ : Fin cfg0.N) r = rowOf ⟨n + 1, h⟩ r :=
        Fin.ext (by show 1024 * (n / 4 % 4) + r.val = 1024 * ((n + 1) / 4 % 4) + r.val; omega)
      have e3 : 1024 * (n % 4 + 1) = 1024 * ((n + 1) % 4) := by omega
      refine (ih (Nat.lt_of_succ_lt h)).trans ?_
      show minBelow (fun mm => dist _ _ (cloudOf ⟨n, _⟩) (rowOf ⟨n, _⟩ r) mm) _
        = minBelow (fun mm => dist _ _ (cloudOf ⟨n + 1, h⟩) (rowOf ⟨n + 1, h⟩ r) mm) _
      rw [e1, e2, e3]

/-- At the last tile of a row of tiles the first output's block holds the row minima over the whole second cloud. -/
theorem out1_block (c : Dev nD) (t : Fin cfg0.N) (h3 : t.val % 4 = 3) (r : Fin 1024) :
    (outsAt0 m c t.val t.isLt).1 (ix3 0 0 r) = rowMin (xa m c) (ya m c) (cloudOf t) (rowOf t r) := by
  have h0 : ¬t.val % 4 = 0 := by omega
  have h1 : ¬t.val % 16 = 0 := by omega
  have key : (outsAt0 m c t.val t.isLt).1 (ix3 0 0 r) = rowAcc m c t.val t.isLt (ix2 r 0) := by
    show _ = (outsAt0 m c t.val t.isLt).2.2.1 (ix2 r 0)
    by_cases h15 : t.val % 16 = 15
    · rw [outsAt0_E m c t h0 h1 h3 h15]
      dsimp only
      rw [Pieces.out2E, Pieces.rowE]
      exact Pay.out_row _ 0 0 r
    · rw [outsAt0_C m c t h0 h1 h3 h15]
      dsimp only
      rw [Pieces.out2C, Pieces.rowC]
      exact Pay.out_row _ 0 0 r
  rw [key, row_inv m c r t.val t.isLt, h3]
  exact minBelow_full _

/-! ## The running column minima -/

/-- The least entry of column `q'` of the point's table. -/
abbrev tileCol (c : Dev nD) (t : Fin cfg0.N) (q' : Fin 1024) : EReal :=
  ⨅ p : Fin 1024, tileDist (ublk m c t) (vblk m c t) p q'

/-- The update payload on the point's table, given the old value it reads. -/
theorem col_payload (c : Dev nD) (t : Fin cfg0.N) (old : Vec Ideal S1x1024 .f32) (q' : Fin 1024) :
    k0_pay1 (F := Ideal) (k0_pay6 (ublk m c t) (vblk m c t)) old (ix2 0 q') = min (old (ix2 0 q')) (tileCol m c t q') := by
  refine (Pay.col_update _ old 0 q').trans ?_
  exact congrArg (min _) (iInf_congr fun p => Pay.dist_tile (ublk m c t) (vblk m c t) p q')

/-- At the first point of a cloud, an entry facing the point's tile restarts from the top element; -/
theorem colAcc_reset_in (c : Dev nD) (t : Fin cfg0.N) (h1 : t.val % 16 = 0) (q : Fin 4096) (q' : Fin 1024)
    (hq : q.val = 1024 * (t.val % 4) + q'.val) :
    colAcc m c t.val t.isLt (ix2 0 q) = min ⊤ (tileCol m c t q') := by
  have h0 : t.val % 4 = 0 := by omega
  have h2 : ¬t.val % 4 = 3 := by omega
  have h3 : ¬t.val % 16 = 15 := by omega
  have hq' : q.val = 1024 * ((grid0.coords t) 2).val + q'.val := by rw [coord2 t]; exact hq
  show (outsAt0 m c t.val t.isLt).2.2.2 (ix2 0 q) = _
  rw [outsAt0_A m c t h0 h1 h2 h3]
  dsimp only
  rw [Pieces.colA_in _ _ _ _ _ _ _ _ _ _ _ _ _ _ _ _ _ _ _ _ q q' hq']
  refine (col_payload m c t _ q').trans ?_
  rw [Pieces.oldSlice_apply _ _ q q' hq', Pay.reset_col]

/-- and any other entry is the top element. -/
theorem colAcc_reset_out (c : Dev nD) (t : Fin cfg0.N) (h1 : t.val % 16 = 0) (q : Fin 4096)
    (hq : q.val < 1024 * (t.val % 4) ∨ 1024 * (t.val % 4) + 1024 ≤ q.val) :
    colAcc m c t.val t.isLt (ix2 0 q) = ⊤ := by
  have h0 : t.val % 4 = 0 := by omega
  have h2 : ¬t.val % 4 = 3 := by omega
  have h3 : ¬t.val % 16 = 15 := by omega
  have hq' : q.val < 1024 * ((grid0.coords t) 2).val ∨ 1024 * ((grid0.coords t) 2).val + 1024 ≤ q.val := by
    rw [coord2 t]; exact hq
  show (outsAt0 m c t.val t.isLt).2.2.2 (ix2 0 q) = _
  rw [outsAt0_A m c t h0 h1 h2 h3]
  dsimp only
  rw [Pieces.colA_out _ _ _ _ _ _ _ _ _ _ _ _ _ _ _ _ _ _ _ _ q hq', Pay.reset_col]

/-- At any other point, an entry facing the point's tile continues from the point before; -/
theorem colAcc_step_in (c : Dev nD) (t : Fin cfg0.N) (h1 : ¬t.val % 16 = 0) (q : Fin 4096) (q' : Fin 1024)
    (hq : q.val = 1024 * (t.val % 4) + q'.val) :
    colAcc m c t.val t.isLt (ix2 0 q)
      = min (colAcc m c (t.val - 1) (Nat.lt_of_le_of_lt (Nat.sub_le _ _) t.isLt) (ix2 0 q)) (tileCol m c t q') := by
  have hq' : q.val = 1024 * ((grid0.coords t) 2).val + q'.val := by rw [coord2 t]; exact hq
  show (outsAt0 m c t.val t.isLt).2.2.2 (ix2 0 q) = _
  by_cases h0 : t.val % 4 = 0
  · have h2 : ¬t.val % 4 = 3 := by omega
    have h3 : ¬t.val % 16 = 15 := by omega
    rw [outsAt0_D m c t h0 h1 h2 h3]
    dsimp only
    rw [Pieces.colD_in _ _ _ _ _ _ _ _ _ _ _ _ _ _ _ _ _ _ _ _ _ q q' hq']
    refine (col_payload m c t _ q').trans ?_
    rw [Pieces.oldSlice_apply _ _ q q' hq']
  · by_cases h2 : t.val % 4 = 3
    · by_cases h3 : t.val % 16 = 15
      · rw [outsAt0_E m c t h0 h1 h2 h3]
        dsimp only
        rw [Pieces.colE_in _ _ _ _ _ _ _ _ _ _ _ _ _ _ _ _ _ _ _ _ _ _ q q' hq']
        refine (col_payload m c t _ q').trans ?_
        rw [Pieces.oldSlice_apply _ _ q q' hq']
      · rw [outsAt0_C m c t h0 h1 h2 h3]
        dsimp only
        rw [Pieces.colC_in _ _ _ _ _ _ _ _ _ _ _ _ _ _ _ _ _ _ _ _ _ _ q q' hq']
        refine (col_payload m c t _ q').trans ?_
        rw [Pieces.oldSlice_apply _ _ q q' hq']
    · have h3 : ¬t.val % 16 = 15 := by omega
      rw [outsAt0_B m c t h0 h1 h2 h3]
      dsimp only
      rw [Pieces.colB_in _ _ _ _ _ _ _ _ _ _ _ _ _ _ _ _ _ _ _ _ _ _ q q' hq']
      refine (col_payload m c t _ q').trans ?_
      rw [Pieces.oldSlice_apply _ _ q q' hq']

/-- and any other entry is kept. -/
theorem colAcc_step_out (c : Dev nD) (t : Fin cfg0.N) (h1 : ¬t.val % 16 = 0) (q : Fin 4096)
    (hq : q.val < 1024 * (t.val % 4) ∨ 1024 * (t.val % 4) + 1024 ≤ q.val) :
    colAcc m c t.val t.isLt (ix2 0 q) = colAcc m c (t.val - 1) (Nat.lt_of_le_of_lt (Nat.sub_le _ _) t.isLt) (ix2 0 q) := by
  have hq' : q.val < 1024 * ((grid0.coords t) 2).val ∨ 1024 * ((grid0.coords t) 2).val + 1024 ≤ q.val := by
    rw [coord2 t]; exact hq
  show (outsAt0 m c t.val t.isLt).2.2.2 (ix2 0 q) = _
  by_cases h0 : t.val % 4 = 0
  · have h2 : ¬t.val % 4 = 3 := by omega
    have h3 : ¬t.val % 16 = 15 := by omega
    rw [outsAt0_D m c t h0 h1 h2 h3]
    dsimp only
    rw [Pieces.colD_out _ _ _ _ _ _ _ _ _ _ _ _ _ _ _ _ _ _ _ _ _ q hq']
  · by_cases h2 : t.val % 4 = 3
    · by_cases h3 : t.val % 16 = 15
      · rw [outsAt0_E m c t h0 h1 h2 h3]
        dsimp only
        rw [Pieces.colE_out _ _ _ _ _ _ _ _ _ _ _ _ _ _ _ _ _ _ _ _ _ _ q hq']
      · rw [outsAt0_C m c t h0 h1 h2 h3]
        dsimp only
        rw [Pieces.colC_out _ _ _ _ _ _ _ _ _ _ _ _ _ _ _ _ _ _ _ _ _ _ q hq']
    · have h3 : ¬t.val % 16 = 15 := by omega
      rw [outsAt0_B m c t h0 h1 h2 h3]
      dsimp only
      rw [Pieces.colB_out _ _ _ _ _ _ _ _ _ _ _ _ _ _ _ _ _ _ _ _ _ _ q hq']

/-- Column `q` of the clouds' table. -/
abbrev colF (c : Dev nD) (t : Fin cfg0.N) (q : Fin 4096) : Fin 4096 → EReal :=
  fun nn => dist (xa m c) (ya m c) (cloudOf t) nn q

/-- How many tiles of the first cloud have been folded into column `q` after point `n`: the rows of tiles already
    finished, and the current one if it has passed the column's tile. -/
def seen (n : ℕ) (q : Fin 4096) : ℕ := n / 4 % 4 + (if q.val / 1024 ≤ n % 4 then 1 else 0)

theorem seen_in (n : ℕ) (q : Fin 4096) (hin : q.val / 1024 = n % 4) : seen n q = n / 4 % 4 + 1 := by
  unfold seen; rw [if_pos (by omega)]

theorem seen_pred_in (n : ℕ) (q : Fin 4096) (h1 : ¬(n + 1) % 16 = 0) (hin : q.val / 1024 = (n + 1) % 4) :
    seen n q = (n + 1) / 4 % 4 := by
  unfold seen; split_ifs <;> omega

theorem seen_pred_out (n : ℕ) (q : Fin 4096) (h1 : ¬(n + 1) % 16 = 0) (hout : ¬q.val / 1024 = (n + 1) % 4) :
    seen n q = seen (n + 1) q := by
  have := q.isLt
  unfold seen; split_ifs <;> omega

/-- Folding in the point's tile extends a running column minimum by one tile of the first cloud. -/
theorem col_at (c : Dev nD) (t : Fin cfg0.N) (q : Fin 4096) (q' : Fin 1024) (hq : q.val = 1024 * (t.val % 4) + q'.val)
    (X : EReal) (hX : X = minBelow (colF m c t q) (1024 * (t.val / 4 % 4))) :
    min X (tileCol m c t q') = minBelow (colF m c t q) (1024 * (t.val / 4 % 4 + 1)) := by
  have hcol : colOf t q' = q := Fin.ext hq.symm
  have e : tileCol m c t q'
      = ⨅ p : Fin 1024, colF m c t q ⟨1024 * (t.val / 4 % 4) + p.val, by have := p.isLt; omega⟩ :=
    iInf_congr fun p => by
      rw [tileDist_eq, hcol]
  rw [e, hX]
  exact minBelow_add_tile _ _ (by omega)

theorem in_slice (t : Fin cfg0.N) (q : Fin 4096) (hin : q.val / 1024 = t.val % 4) :
    q.val = 1024 * (t.val % 4) + (⟨q.val % 1024, Nat.mod_lt _ (by norm_num)⟩ : Fin 1024).val := by
  show q.val = 1024 * (t.val % 4) + q.val % 1024
  omega

theorem out_slice (t : Fin cfg0.N) (q : Fin 4096) (hout : ¬q.val / 1024 = t.val % 4) :
    q.val < 1024 * (t.val % 4) ∨ 1024 * (t.val % 4) + 1024 ≤ q.val := by
  omega

/-- The invariant at the first point of a cloud. -/
theorem col_inv_reset (c : Dev nD) (t : Fin cfg0.N) (h1 : t.val % 16 = 0) (q : Fin 4096) :
    colAcc m c t.val t.isLt (ix2 0 q) = minBelow (colF m c t q) (1024 * seen t.val q) := by
  have hz : t.val / 4 % 4 = 0 := by omega
  by_cases hin : q.val / 1024 = t.val % 4
  · rw [colAcc_reset_in m c t h1 q _ (in_slice t q hin)]
    refine (col_at m c t q _ (in_slice t q hin) ⊤ ?_).trans ?_
    · rw [hz]; exact (minBelow_zero _).symm
    · rw [seen_in t.val q hin]
  · rw [colAcc_reset_out m c t h1 q (out_slice t q hin)]
    have hs : seen t.val q = 0 := by unfold seen; rw [if_neg (by omega)]; omega
    rw [hs]
    exact (minBelow_zero _).symm

/-- After point `n` the running column minimum of column `q` is the minimum over the first `1024 (seen n q)` points of
    the first cloud. -/
theorem col_inv (c : Dev nD) (q : Fin 4096) : ∀ (n : ℕ) (h : n < cfg0.N),
    colAcc m c n h (ix2 0 q) = minBelow (colF m c ⟨n, h⟩ q) (1024 * seen n q) := by
  intro n
  induction n with
  | zero => intro h; exact col_inv_reset m c ⟨0, h⟩ rfl q
  | succ n ih =>
    intro h
    by_cases h1 : (n + 1) % 16 = 0
    · exact col_inv_reset m c ⟨n + 1, h⟩ h1 q
    · have e1 : cloudOf (⟨n, Nat.lt_of_succ_lt h⟩ : Fin cfg0.N) = cloudOf ⟨n + 1, h⟩ :=
        Fin.ext (by show n / 16 = (n + 1) / 16; omega)
      have ih' : colAcc m c n (Nat.lt_of_succ_lt h) (ix2 0 q)
          = minBelow (colF m c ⟨n + 1, h⟩ q) (1024 * seen n q) := by
        refine (ih (Nat.lt_of_succ_lt h)).trans ?_
        show minBelow (fun nn => dist _ _ (cloudOf ⟨n, _⟩) nn q) _ = minBelow (fun nn => dist _ _ (cloudOf ⟨n + 1, h⟩) nn q) _
        rw [e1]
      by_cases hin : q.val / 1024 = (n + 1) % 4
      · rw [colAcc_step_in m c ⟨n + 1, h⟩ h1 q _ (in_slice ⟨n + 1, h⟩ q hin)]
        refine (col_at m c ⟨n + 1, h⟩ q _ (in_slice ⟨n + 1, h⟩ q hin) _ ?_).trans ?_
        · refine ih'.trans ?_
          rw [seen_pred_in n q h1 hin]
        · rw [seen_in (n + 1) q hin]
      · rw [colAcc_step_out m c ⟨n + 1, h⟩ h1 q (out_slice ⟨n + 1, h⟩ q hin)]
        refine ih'.trans ?_
        rw [seen_pred_out n q h1 hin]

/-- At the last point of a cloud the second output's block holds the column minima over the whole first cloud. -/
theorem out2_block (c : Dev nD) (t : Fin cfg0.N) (h15 : t.val % 16 = 15) (q : Fin 4096) :
    (outsAt0 m c t.val t.isLt).2.1 (ix3 0 0 q) = colMin (xa m c) (ya m c) (cloudOf t) q := by
  have h0 : ¬t.val % 4 = 0 := by omega
  have h1 : ¬t.val % 16 = 0 := by omega
  have h3 : t.val % 4 = 3 := by omega
  have key : (outsAt0 m c t.val t.isLt).2.1 (ix3 0 0 q) = colAcc m c t.val t.isLt (ix2 0 q) := by
    show _ = (outsAt0 m c t.val t.isLt).2.2.2 (ix2 0 q)
    rw [outsAt0_E m c t h0 h1 h3 h15]
    dsimp only
    rw [Pieces.out3E]
    exact Pay.out_col _ 0 0 q
  have hs : seen t.val q = 4 := by
    have := q.isLt
    unfold seen; rw [if_pos (by omega)]; omega
  rw [key, col_inv m c q t.val t.isLt, hs]
  exact minBelow_full _

end Cert.Chamfer.Inv

end
-- ==== Proof.Whole.lean ====
/-
  From the output blocks to the kernel program's result.

  The first output array is written one block of 1024 entries at a time, at the last tile of each row of tiles; the
  second one block of 4096 entries at a time, at the last point of each cloud. Those blocks tile the two arrays, so
  after the region the first array holds every point's row minimum and the second every point's column minimum. The
  lines after the region sum each array from zero, add the two sums and divide by sixteen: the specification's
  `total`, the sum over an array's index set being the double sum over clouds and points.
-/
import proofs.«130808_j25074019074268_1_alg».proof.Proof.Invariant
import Idealize.ShloMosaic.Lib.Pipeline.Value
import Idealize.ShloMosaic.Lib.StableHlo.Run
import Idealize.ShloMosaic.PureOps.Ideal.Laws

set_option maxRecDepth 16384

noncomputable section

namespace Cert.Chamfer.Whole

open Idealize.ShloMosaic Idealize.ShloMosaic.TcCoe Idealize.SL.Sem
open Idealize.ShloMosaic.Pipeline (Dat)
open Idealize.ShloMosaic.ValueIdx Cert.Chamfer Cert.Chamfer.Inv
open Cert.KernelIdeal Cert.KernelIdeal.Gen

variable (m : (ℓ : Loc nD τ sig) → Buf (Elt Ideal) ℓ) (ρ : Dev nD → PrngReg)

/-- The first output array as the region leaves it: at cloud `b`, point `n`, the row minimum. -/
private def rowMins (c : Dev nD) : S16x1x4096.Idx → EReal := fun j =>
  rowMin (xa m c) (ya m c) ⟨(j 0).val, (j 0).isLt⟩ ⟨(j 2).val, (j 2).isLt⟩
/-- The second output array as the region leaves it: at cloud `b`, point `q` of the second cloud, the column minimum. -/
private def colMins (c : Dev nD) : S16x1x4096.Idx → EReal := fun j =>
  colMin (xa m c) (ya m c) ⟨(j 0).val, (j 0).isLt⟩ ⟨(j 2).val, (j 2).isLt⟩

/-- Where the first output's block sits at point `t`: cloud `t / 16`, tile `t / 4 % 4` of the first cloud. -/
private theorem rowWindow_index : ∀ t : Fin cfg0.N,
    win0_2.index t 0 = t.val / 16 ∧ win0_2.index t 1 = 0 ∧ win0_2.index t 2 = t.val / 4 % 4 :=
  (by decide +kernel : ∀ t : Fin grid0.N,
    win0_2.index t 0 = t.val / 16 ∧ win0_2.index t 1 = 0 ∧ win0_2.index t 2 = t.val / 4 % 4)
/-- Where the second output's block sits at point `t`: cloud `t / 16`, the whole second cloud. -/
private theorem colWindow_index : ∀ t : Fin cfg0.N,
    win0_3.index t 0 = t.val / 16 ∧ win0_3.index t 1 = 0 ∧ win0_3.index t 2 = 0 :=
  (by decide +kernel : ∀ t : Fin grid0.N,
    win0_3.index t 0 = t.val / 16 ∧ win0_3.index t 1 = 0 ∧ win0_3.index t 2 = 0)

/-- What the last tile of a row of tiles writes back is the block of `rowMins` at its place: entry `r` of the block is
    point `1024 (t / 4 % 4) + r` of cloud `t / 16`. -/
private theorem rowBlock_written (c : Dev nD) (t : Fin cfg0.N) (hf : (cfg0.win 2).flush t = true) :
    (dats m 0 c).flushed 2 t = ((cfg0.win 2).blk t).view.read (Elt Ideal) (rowMins m c) := by
  show (cfg0.win 2).cut (grid0.coords t) ((dats m 0 c).after 2 t) = _
  rw [after0_2]
  have h3 : t.val % 4 = 3 := (flush0_2 t).mp hf
  obtain ⟨e0, e1, e2⟩ := rowWindow_index t
  have ht := lt256 t
  funext j
  have hj0 : (j 0).val < 1 := (j 0).isLt
  have hj1 : (j 1).val < 1 := (j 1).isLt
  have hj2 : (j 2).val < 1024 := (j 2).isLt
  have hl : (cfg0.win 2).xinj (grid0.coords t) j = ix3 (0 : Fin 1) (0 : Fin 1) (⟨(j 2).val, hj2⟩ : Fin 1024) := by
    funext a; apply Fin.ext
    match a with
    | ⟨0, _⟩ => show (j 0).val = 0; omega
    | ⟨1, _⟩ => show (j 1).val = 0; omega
    | ⟨2, _⟩ => rfl
  refine ((congrArg (outsAt0 m c t.val t.isLt).1 hl).trans (out1_block m c t h3 ⟨(j 2).val, hj2⟩)).trans ?_
  show _ = rowMins m c (((cfg0.win 2).blk t).view.emb j)
  unfold rowMins
  congr 1 <;> apply Fin.ext
  · show t.val / 16 = win0_2.index t 0 * 1 + 1 * (j 0).val; omega
  · show 1024 * (t.val / 4 % 4) + (j 2).val = win0_2.index t 2 * 1024 + 1 * (j 2).val; omega

/-- What the last point of a cloud writes back is the block of `colMins` at its place: the whole row of cloud `t / 16`. -/
private theorem colBlock_written (c : Dev nD) (t : Fin cfg0.N) (hf : (cfg0.win 3).flush t = true) :
    (dats m 0 c).flushed 3 t = ((cfg0.win 3).blk t).view.read (Elt Ideal) (colMins m c) := by
  show (cfg0.win 3).cut (grid0.coords t) ((dats m 0 c).after 3 t) = _
  rw [after0_3]
  have h15 : t.val % 16 = 15 := (flush0_3 t).mp hf
  obtain ⟨e0, e1, e2⟩ := colWindow_index t
  have ht := lt256 t
  funext j
  have hj0 : (j 0).val < 1 := (j 0).isLt
  have hj1 : (j 1).val < 1 := (j 1).isLt
  have hj2 : (j 2).val < 4096 := (j 2).isLt
  have hl : (cfg0.win 3).xinj (grid0.coords t) j = ix3 (0 : Fin 1) (0 : Fin 1) (⟨(j 2).val, hj2⟩ : Fin 4096) := by
    funext a; apply Fin.ext
    match a with
    | ⟨0, _⟩ => show (j 0).val = 0; omega
    | ⟨1, _⟩ => show (j 1).val = 0; omega
    | ⟨2, _⟩ => rfl
  refine ((congrArg (outsAt0 m c t.val t.isLt).2.1 hl).trans (out2_block m c t h15 ⟨(j 2).val, hj2⟩)).trans ?_
  show _ = colMins m c (((cfg0.win 3).blk t).view.emb j)
  unfold colMins
  congr 1 <;> apply Fin.ext
  · show t.val / 16 = win0_3.index t 0 * 1 + 1 * (j 0).val; omega
  · show (j 2).val = win0_3.index t 2 * 4096 + 1 * (j 2).val; omega

/-- The blocks written at the ends of the rows of tiles tile the first array — entry `(b, 0, n)` lies in the block of
    point `16 b + 4 (n / 1024) + 3` —, so after the region it holds `rowMins`. -/
private theorem rowArray_final (c : Dev nD) : (dats m 0 c).arrAt 2 cfg0.N = rowMins m c :=
  (dats m 0 c).arrAt_eq_of_cover 2 (rowMins m c) (rowBlock_written m c) fun i => by
    have hi0 : (i 0).val < 16 := (i 0).isLt
    have hi1 : (i 1).val < 1 := (i 1).isLt
    have hi2 : (i 2).val < 4096 := (i 2).isLt
    have hN : cfg0.N = 256 := N_0
    let t : Fin cfg0.N := ⟨16 * (i 0).val + 4 * ((i 2).val / 1024) + 3, by omega⟩
    have htv : t.val = 16 * (i 0).val + 4 * ((i 2).val / 1024) + 3 := rfl
    obtain ⟨e0, e1, e2⟩ := rowWindow_index t
    refine ⟨t, (flush0_2 t).mpr (by omega), ?_⟩
    show i ∈ ((View.whole main_v0_0).slice (win0_2.rect t)).set
    rw [View.set_slice_whole, Rect.mem_set_unit]
    intro a
    match a with
    | ⟨0, _⟩ => show win0_2.index t 0 * 1 ≤ (i 0).val ∧ (i 0).val < win0_2.index t 0 * 1 + 1; omega
    | ⟨1, _⟩ => show win0_2.index t 1 * 1 ≤ (i 1).val ∧ (i 1).val < win0_2.index t 1 * 1 + 1; omega
    | ⟨2, _⟩ => show win0_2.index t 2 * 1024 ≤ (i 2).val ∧ (i 2).val < win0_2.index t 2 * 1024 + 1024; omega

/-- The blocks written at the ends of the clouds tile the second array — entry `(b, 0, q)` lies in the block of point
    `16 b + 15` —, so after the region it holds `colMins`. -/
private theorem colArray_final (c : Dev nD) : (dats m 0 c).arrAt 3 cfg0.N = colMins m c :=
  (dats m 0 c).arrAt_eq_of_cover 3 (colMins m c) (colBlock_written m c) fun i => by
    have hi0 : (i 0).val < 16 := (i 0).isLt
    have hi1 : (i 1).val < 1 := (i 1).isLt
    have hi2 : (i 2).val < 4096 := (i 2).isLt
    have hN : cfg0.N = 256 := N_0
    let t : Fin cfg0.N := ⟨16 * (i 0).val + 15, by omega⟩
    have htv : t.val = 16 * (i 0).val + 15 := rfl
    obtain ⟨e0, e1, e2⟩ := colWindow_index t
    refine ⟨t, (flush0_3 t).mpr (by omega), ?_⟩
    show i ∈ ((View.whole main_v0_1).slice (win0_3.rect t)).set
    rw [View.set_slice_whole, Rect.mem_set_unit]
    intro a
    match a with
    | ⟨0, _⟩ => show win0_3.index t 0 * 1 ≤ (i 0).val ∧ (i 0).val < win0_3.index t 0 * 1 + 1; omega
    | ⟨1, _⟩ => show win0_3.index t 1 * 1 ≤ (i 1).val ∧ (i 1).val < win0_3.index t 1 * 1 + 1; omega
    | ⟨2, _⟩ => show win0_3.index t 2 * 4096 ≤ (i 2).val ∧ (i 2).val < win0_3.index t 2 * 4096 + 4096; omega

/-- The index set of a 16 x 1 x 4096 array is the product of its two long coordinate ranges … -/
private def cloudPointEquiv : S16x1x4096.Idx ≃ Fin 16 × Fin 4096 where
  toFun i := (i 0, i 2)
  invFun p := ix3 p.1 (0 : Fin 1) p.2
  left_inv i := by
    funext a
    match a with
    | ⟨0, _⟩ => rfl
    | ⟨1, _⟩ => apply Fin.ext; show (0 : Nat) = (i 1).val; have h : (i 1).val < 1 := (i 1).isLt; omega
    | ⟨2, _⟩ => rfl
  right_inv _ := rfl

/-- … so a sum over it is the double sum over clouds and points. -/
private theorem sum_cloud_point (f : S16x1x4096.Idx → EReal) :
    ∑ i, f i = ∑ b : Fin 16, ∑ n : Fin 4096, f (ix3 b (0 : Fin 1) n) := by
  rw [← Equiv.sum_comp cloudPointEquiv.symm f, Fintype.sum_prod_type]
  rfl

/-- The sum of a whole array from the zero word is the sum of its entries. -/
private theorem sum_from_zero (A : Vec Ideal S16x1x4096 .f32) (i : S_.Idx) :
    Host.reduceAdd (F := Ideal) A (constant (F := Ideal) S_ .f32 0x00000000#32) reducesTo_S16x1x4096_S_d0_1_2 h_S_ i
      = ∑ j, A j := by
  simp only [Host.reduceAdd, Ideal.hostReduceAdd_def]
  refine (Ideal.hostReduceAdd_total reducesTo_S16x1x4096_S_d0_1_2 (fun b => b.elim0) A _ i).trans ?_
  rw [constant_apply, Ideal.ofBits_zero_f32, zero_add]

/-- The lines after the region, applied to the two arrays the region leaves, give `total`: each array summed from zero
    is the double sum of its minima, the two sums are added and the sum divided by sixteen. -/
private theorem tail_total (c : Dev nD) : Pipeline.afterTail₀ cfgs (dats m) 0 (V0 m) [hostOps1] c main_v4
    = fun _ => total (m ((c : Thread nD τ).loc main_arg0)) (m ((c : Thread nD τ).loc main_arg1)) := by
  unfold Pipeline.afterTail₀
  show StableHlo.after hostOps1 _ (Proc.devRef .tc main_v4) = _
  after_results
  have a2 : Pipeline.withArrays (cfgs 0).spec c (V0 m c) (fun w => (dats m 0 c).arrAt w (cfgs 0).N)
      (Proc.devRef .tc main_v0_0) = rowMins m c :=
    (Pipeline.withArrays_arr spec0 launch0.win.arr_inj c _ _ 2).trans (rowArray_final m c)
  have a3 : Pipeline.withArrays (cfgs 0).spec c (V0 m c) (fun w => (dats m 0 c).arrAt w (cfgs 0).N)
      (Proc.devRef .tc main_v0_1) = colMins m c :=
    (Pipeline.withArrays_arr spec0 launch0.win.arr_inj c _ _ 3).trans (colArray_final m c)
  rw [a2, a3]
  funext i
  show FloatOps.hostDivf (FloatOps.addf
      (Host.reduceAdd (F := Ideal) (rowMins m c) (constant (F := Ideal) S_ .f32 0x00000000#32)
        reducesTo_S16x1x4096_S_d0_1_2 h_S_ i)
      (Host.reduceAdd (F := Ideal) (colMins m c) (constant (F := Ideal) S_ .f32 0x00000000#32)
        reducesTo_S16x1x4096_S_d0_1_2 h_S_ i))
    (FloatOps.ofBits .f32 0x41800000#32) = _
  rw [sum_from_zero, sum_from_zero, sum_cloud_point, sum_cloud_point]
  rfl

/-- The idealized kernel program runs, ends with its result at `total` of the two argument arrays, and leaves the
    arguments as they were. -/
theorem run : θ_run defs (onTc (τ := τ) (main (F := Ideal))) ⟨m, fun _ => 0, ρ⟩ fun r => ∀ c : Dev nD,
      r.2.mem ((c : Thread nD τ).loc main_v4)
        = (fun _ => total (m ((c : Thread nD τ).loc main_arg0)) (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
      ⟨((h c).2 main_v4 (Pipeline.mem_restRefs_of main_v4 rfl (by decide))).trans (tail_total m c),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c)))⟩)
    (run_main m ρ)

end Cert.Chamfer.Whole

end
-- ==== Proof.lean ====
/-
  The certificate of the batched nearest-squared-distance sum of two point clouds.

  The kernel tiles each pair of clouds 1024 x 1024, keeps running row and column minima of the expanded squared
  distance `(|x_n|^2 + |y_m|^2) - 2 <x_n, y_m>` across the tiles, writes the finished minima out, and the lines after
  the region sum them and divide by sixteen. The reference forms the whole table, reduces it by `min` along either
  axis, sums, and divides by sixteen. Over the extended reals both are the specification's `total`
  (Proof/Spec.lean): a minimum taken tile by tile from `+inf` is the minimum over all points, because `min` and the
  infimum are determined by their lower bounds; the product of the tiles narrowed to a shorter float format is the
  same sum of products; a sum is the same in any order; multiplying by one changes nothing. No finiteness of the
  inputs is used.

  The three frames are the generated ones (the reference's is its generated run with the result dropped); the
  idealization rewrote nothing, so `preserves` is trivial; the kernel's value is Proof/Whole.lean's `run` (over
  Proof/Invariant.lean, Proof/Pieces.lean, Proof/Payload.lean) and the reference's is Proof/RefValue.lean's
  `result_eq` over the generated run and its stage-by-stage reading.
-/
import proofs.«130808_j25074019074268_1_alg».proof.Defs
import proofs.«130808_j25074019074268_1_alg».proof.Proof.Gen.Kernel
import proofs.«130808_j25074019074268_1_alg».proof.Proof.Gen.Kernel.Skeleton
import proofs.«130808_j25074019074268_1_alg».proof.Proof.Gen.Kernel.Launch
import proofs.«130808_j25074019074268_1_alg».proof.Proof.Gen.Kernel.Points
import proofs.«130808_j25074019074268_1_alg».proof.Proof.Gen.Kernel.Frame
import proofs.«130808_j25074019074268_1_alg».proof.Proof.Gen.KernelIdeal
import proofs.«130808_j25074019074268_1_alg».proof.Proof.Gen.KernelIdeal.Skeleton
import proofs.«130808_j25074019074268_1_alg».proof.Proof.Gen.KernelIdeal.Launch
import proofs.«130808_j25074019074268_1_alg».proof.Proof.Gen.KernelIdeal.Points
import proofs.«130808_j25074019074268_1_alg».proof.Proof.Gen.KernelIdeal.Frame
import proofs.«130808_j25074019074268_1_alg».proof.Proof.Gen.ReferenceIdeal
import proofs.«130808_j25074019074268_1_alg».proof.Proof.Gen.Pre_finite_inputs
import proofs.«130808_j25074019074268_1_alg».proof.Proof.Gen.ReferenceIdeal.Run
import proofs.«130808_j25074019074268_1_alg».proof.Proof.Gen.ReferenceIdeal.Read
import proofs.«130808_j25074019074268_1_alg».proof.Proof.RefValue
import proofs.«130808_j25074019074268_1_alg».proof.Proof.Whole
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end with the specification's `total` of arguments that agree. -/
theorem algebraic : Cert.algebraic_KernelIdeal_ReferenceIdeal := by
  intro m ρ m' ρ' _ hagree
  refine ⟨fun c => fun _ => Cert.Chamfer.total
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.Chamfer.Whole.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v20_eq (F := Ideal) _ _).trans ?_
  rw [Cert.Chamfer.Ref.result_eq, (hagree c).1, (hagree c).2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
